-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x10 : Shape := ⟨2, ![1024, 10]⟩
abbrev S1024x1 : Shape := ⟨2, ![1024, 1]⟩
abbrev S12x20 : Shape := ⟨2, ![12, 20]⟩
abbrev S20 : Shape := ⟨1, ![20]⟩
abbrev S20x500 : Shape := ⟨2, ![20, 500]⟩
abbrev S500 : Shape := ⟨1, ![500]⟩
abbrev S500x200 : Shape := ⟨2, ![500, 200]⟩
abbrev S200 : Shape := ⟨1, ![200]⟩
abbrev S200x20 : Shape := ⟨2, ![200, 20]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x10 : S_.BroadcastsInDim S1024x10 (![] : Fin 0 → Fin S1024x10.rank)
  reducesTo_S1024x10_S_d0_1 : S1024x10.ReducesTo [0, 1] S_
  bcast_S_S1024x1 : S_.BroadcastsInDim S1024x1 (![] : Fin 0 → Fin S1024x1.rank)
  reducesTo_S1024x1_S_d0_1 : S1024x1.ReducesTo [0, 1] S_
  bcast_S_S12x20 : S_.BroadcastsInDim S12x20 (![] : Fin 0 → Fin S12x20.rank)
  reducesTo_S12x20_S_d0_1 : S12x20.ReducesTo [0, 1] S_
  bcast_S_S20 : S_.BroadcastsInDim S20 (![] : Fin 0 → Fin S20.rank)
  reducesTo_S20_S_d0 : S20.ReducesTo [0] S_
  bcast_S_S20x500 : S_.BroadcastsInDim S20x500 (![] : Fin 0 → Fin S20x500.rank)
  reducesTo_S20x500_S_d0_1 : S20x500.ReducesTo [0, 1] S_
  bcast_S_S500 : S_.BroadcastsInDim S500 (![] : Fin 0 → Fin S500.rank)
  reducesTo_S500_S_d0 : S500.ReducesTo [0] S_
  bcast_S_S500x200 : S_.BroadcastsInDim S500x200 (![] : Fin 0 → Fin S500x200.rank)
  reducesTo_S500x200_S_d0_1 : S500x200.ReducesTo [0, 1] S_
  bcast_S_S200 : S_.BroadcastsInDim S200 (![] : Fin 0 → Fin S200.rank)
  reducesTo_S200_S_d0 : S200.ReducesTo [0] S_
  bcast_S_S200x20 : S_.BroadcastsInDim S200x20 (![] : Fin 0 → Fin S200x20.rank)
  reducesTo_S200x20_S_d0_1 : S200x20.ReducesTo [0, 1] S_

variable [Facts]

def fn_part3 {F : FTy → Type} [FloatOps F] (main_arg11 : FVec F S20 .f32) (main_v48 : IVec S_ 1) (main_v49 : FVec F S200x20 .f32) (main_v50 : FVec F S200x20 .f32) : IVec S_ 1 :=
  let main_v51 : IVec S200x20 1 := cmpf .olt main_v49 main_v50
  let main_c_19 : IVec S_ 1 := constantI S_ 1 1#1
  let main_v52 : IVec S_ 1 := (fun x v => Host.reduce IntOp.andi x v reducesTo_S200x20_S_d0_1 h_S_) main_v51 main_c_19
  let main_v53 : IVec S_ 1 := andi main_v48 main_v52
  let main_v54 : FVec F S20 .f32 := Host.absf main_arg11
  let main_cst_20 : FVec F S_ .f32 := constant S_ .f32 0x7F800000#32
  let main_v55 : FVec F S20 .f32 := broadcastInDim S20 ![] bcast_S_S20 main_cst_20
  let main_v56 : IVec S20 1 := cmpf .olt main_v54 main_v55
  let main_c_21 : IVec S_ 1 := constantI S_ 1 1#1
  let main_v57 : IVec S_ 1 := (fun x v => Host.reduce IntOp.andi x v reducesTo_S20_S_d0 h_S_) main_v56 main_c_21
  let main_v58 : IVec S_ 1 := andi main_v53 main_v57
  main_v58

def fn_part2 {F : FTy → Type} [FloatOps F] (main_arg7 : FVec F S500 .f32) (main_arg8 : FVec F S500x200 .f32) (main_arg9 : FVec F S200 .f32) (main_arg10 : FVec F S200x20 .f32) (main_arg11 : FVec F S20 .f32) (main_v33 : IVec S_ 1) : IVec S_ 1 :=
  let main_v34 : FVec F S500 .f32 := Host.absf main_arg7
  let main_cst_12 : FVec F S_ .f32 := constant S_ .f32 0x7F800000#32
  let main_v35 : FVec F S500 .f32 := broadcastInDim S500 ![] bcast_S_S500 main_cst_12
  let main_v36 : IVec S500 1 := cmpf .olt main_v34 main_v35
  let main_c_13 : IVec S_ 1 := constantI S_ 1 1#1
  let main_v37 : IVec S_ 1 := (fun x v => Host.reduce IntOp.andi x v reducesTo_S500_S_d0 h_S_) main_v36 main_c_13
  let main_v38 : IVec S_ 1 := andi main_v33 main_v37
  let main_v39 : FVec F S500x200 .f32 := Host.absf main_arg8
  let main_cst_14 : FVec F S_ .f32 := constant S_ .f32 0x7F800000#32
  let main_v40 : FVec F S500x200 .f32 := broadcastInDim S500x200 ![] bcast_S_S500x200 main_cst_14
  let main_v41 : IVec S500x200 1 := cmpf .olt main_v39 main_v40
  let main_c_15 : IVec S_ 1 := constantI S_ 1 1#1
  let main_v42 : IVec S_ 1 := (fun x v => Host.reduce IntOp.andi x v reducesTo_S500x200_S_d0_1 h_S_) main_v41 main_c_15
  let main_v43 : IVec S_ 1 := andi main_v38 main_v42
  let main_v44 : FVec F S200 .f32 := Host.absf main_arg9
  let main_cst_16 : FVec F S_ .f32 := constant S_ .f32 0x7F800000#32
  let main_v45 : FVec F S200 .f32 := broadcastInDim S200 ![] bcast_S_S200 main_cst_16
  let main_v46 : IVec S200 1 := cmpf .olt main_v44 main_v45
  let main_c_17 : IVec S_ 1 := constantI S_ 1 1#1
  let main_v47 : IVec S_ 1 := (fun x v => Host.reduce IntOp.andi x v reducesTo_S200_S_d0 h_S_) main_v46 main_c_17
  let main_v48 : IVec S_ 1 := andi main_v43 main_v47
  let main_v49 : FVec F S200x20 .f32 := Host.absf main_arg10
  let main_cst_18 : FVec F S_ .f32 := constant S_ .f32 0x7F800000#32
  let main_v50 : FVec F S200x20 .f32 := broadcastInDim S200x20 ![] bcast_S_S200x20 main_cst_18
  fn_part3 (F := F) main_arg11 main_v48 main_v49 main_v50

def fn_part1 {F : FTy → Type} [FloatOps F] (main_arg4 : FVec F S12x20 .f32) (main_arg5 : FVec F S20 .f32) (main_arg6 : FVec F S20x500 .f32) (main_arg7 : FVec F S500 .f32) (main_arg8 : FVec F S500x200 .f32) (main_arg9 : FVec F S200 .f32) (main_arg10 : FVec F S200x20 .f32) (main_arg11 : FVec F S20 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S12x20 .f32 := Host.absf main_arg4
  let main_cst_6 : FVec F S_ .f32 := constant S_ .f32 0x7F800000#32
  let main_v20 : FVec F S12x20 .f32 := broadcastInDim S12x20 ![] bcast_S_S12x20 main_cst_6
  let main_v21 : IVec S12x20 1 := cmpf .olt main_v19 main_v20
  let main_c_7 : IVec S_ 1 := constantI S_ 1 1#1
  let main_v22 : IVec S_ 1 := (fun x v => Host.reduce IntOp.andi x v reducesTo_S12x20_S_d0_1 h_S_) main_v21 main_c_7
  let main_v23 : IVec S_ 1 := andi main_v18 main_v22
  let main_v24 : FVec F S20 .f32 := Host.absf main_arg5
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S20x500 .f32 := Host.absf main_arg6
  let main_cst_10 : FVec F S_ .f32 := constant S_ .f32 0x7F800000#32
  let main_v30 : FVec F S20x500 .f32 := broadcastInDim S20x500 ![] bcast_S_S20x500 main_cst_10
  let main_v31 : IVec S20x500 1 := cmpf .olt main_v29 main_v30
  let main_c_11 : IVec S_ 1 := constantI S_ 1 1#1
  let main_v32 : IVec S_ 1 := (fun x v => Host.reduce IntOp.andi x v reducesTo_S20x500_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x1024 .f32) (main_arg1 : FVec F S4096x1024 .f32) (main_arg2 : FVec F S1024x10 .f32) (main_arg3 : FVec F S1024x1 .f32) (main_arg4 : FVec F S12x20 .f32) (main_arg5 : FVec F S20 .f32) (main_arg6 : FVec F S20x500 .f32) (main_arg7 : FVec F S500 .f32) (main_arg8 : FVec F S500x200 .f32) (main_arg9 : FVec F S200 .f32) (main_arg10 : FVec F S200x20 .f32) (main_arg11 : FVec F S20 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x10 .f32 := Host.absf main_arg2
  let main_cst_2 : FVec F S_ .f32 := constant S_ .f32 0x7F800000#32
  let main_v10 : FVec F S1024x10 .f32 := broadcastInDim S1024x10 ![] bcast_S_S1024x10 main_cst_2
  let main_v11 : IVec S1024x10 1 := cmpf .olt main_v9 main_v10
  let main_c_3 : IVec S_ 1 := constantI S_ 1 1#1
  let main_v12 : IVec S_ 1 := (fun x v => Host.reduce IntOp.andi x v reducesTo_S1024x10_S_d0_1 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_arg5 main_arg6 main_arg7 main_arg8 main_arg9 main_arg10 main_arg11 main_v13 main_v16
-- ==== Kernel.lean ====
abbrev S4096x1024 : Shape := ⟨2, ![4096, 1024]⟩
abbrev S1024x10 : Shape := ⟨2, ![1024, 10]⟩
abbrev S1024x1 : Shape := ⟨2, ![1024, 1]⟩
abbrev S12x20 : Shape := ⟨2, ![12, 20]⟩
abbrev S20 : Shape := ⟨1, ![20]⟩
abbrev S20x500 : Shape := ⟨2, ![20, 500]⟩
abbrev S500 : Shape := ⟨1, ![500]⟩
abbrev S500x200 : Shape := ⟨2, ![500, 200]⟩
abbrev S200 : Shape := ⟨1, ![200]⟩
abbrev S200x20 : Shape := ⟨2, ![200, 20]⟩
abbrev S10x20 : Shape := ⟨2, ![10, 20]⟩
abbrev S1024x20 : Shape := ⟨2, ![1024, 20]⟩
abbrev S1x20 : Shape := ⟨2, ![1, 20]⟩
abbrev S1x500 : Shape := ⟨2, ![1, 500]⟩
abbrev S1x200 : Shape := ⟨2, ![1, 200]⟩
abbrev S4096x10 : Shape := ⟨2, ![4096, 10]⟩
abbrev S1024x1024 : Shape := ⟨2, ![1024, 1024]⟩
abbrev S1024x500 : Shape := ⟨2, ![1024, 500]⟩
abbrev S1024x200 : Shape := ⟨2, ![1024, 200]⟩

abbrev nBuf : Space → Nat
  | .hbm => 29
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x10, .f32⟩
  | .hbm, ⟨3, _⟩ => ⟨S1024x1, .f32⟩
  | .hbm, ⟨4, _⟩ => ⟨S12x20, .f32⟩
  | .hbm, ⟨5, _⟩ => ⟨S20, .f32⟩
  | .hbm, ⟨6, _⟩ => ⟨S20x500, .f32⟩
  | .hbm, ⟨7, _⟩ => ⟨S500, .f32⟩
  | .hbm, ⟨8, _⟩ => ⟨S500x200, .f32⟩
  | .hbm, ⟨9, _⟩ => ⟨S200, .f32⟩
  | .hbm, ⟨10, _⟩ => ⟨S200x20, .f32⟩
  | .hbm, ⟨11, _⟩ => ⟨S20, .f32⟩
  | .hbm, ⟨12, _⟩ => ⟨S10x20, .f32⟩
  | .hbm, ⟨13, _⟩ => ⟨S1024x20, .f32⟩
  | .hbm, ⟨14, _⟩ => ⟨S1x20, .f32⟩
  | .hbm, ⟨15, _⟩ => ⟨S1024x20, .f32⟩
  | .hbm, ⟨16, _⟩ => ⟨S1024x20, .f32⟩
  | .hbm, ⟨17, _⟩ => ⟨S1x20, .f32⟩
  | .hbm, ⟨18, _⟩ => ⟨S1024x20, .f32⟩
  | .hbm, ⟨19, _⟩ => ⟨S1024x20, .f32⟩
  | .hbm, ⟨20, _⟩ => ⟨S1024x20, .f32⟩
  | .hbm, ⟨21, _⟩ => ⟨S1x20, .f32⟩
  | .hbm, ⟨22, _⟩ => ⟨S1024x20, .f32⟩
  | .hbm, ⟨23, _⟩ => ⟨S1024x20, .f32⟩
  | .hbm, ⟨24, _⟩ => ⟨S1x500, .f32⟩
  | .hbm, ⟨25, _⟩ => ⟨S1x200, .f32⟩
  | .hbm, ⟨26, _⟩ => ⟨S1x20, .f32⟩
  | .hbm, ⟨27, _⟩ => ⟨S4096x10, .f32⟩
  | .hbm, ⟨28, _⟩ => ⟨S4096x10, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x20, .f32⟩
  | .local _ .vmem, ⟨5, _⟩ => ⟨S1024x20, .f32⟩
  | .local _ .vmem, ⟨6, _⟩ => ⟨S20x500, .f32⟩
  | .local _ .vmem, ⟨7, _⟩ => ⟨S1x500, .f32⟩
  | .local _ .vmem, ⟨8, _⟩ => ⟨S500x200, .f32⟩
  | .local _ .vmem, ⟨9, _⟩ => ⟨S1x200, .f32⟩
  | .local _ .vmem, ⟨10, _⟩ => ⟨S200x20, .f32⟩
  | .local _ .vmem, ⟨11, _⟩ => ⟨S1x20, .f32⟩
  | .local _ .vmem, ⟨12, _⟩ => ⟨S1024x10, .f32⟩
  | .local _ .vmem, ⟨13, _⟩ => ⟨S1024x10, .f32⟩
  | .local _ .vmem, ⟨14, _⟩ => ⟨S1024x10, .f32⟩
  | .local _ .vmem, ⟨15, _⟩ => ⟨S1024x10, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x500 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x500 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S500x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S200x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x10 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S12x20_S10x20_1_0 : S12x20.Slices ![1, 0] S10x20
  slices_S12x20_S1x20_0_0 : S12x20.Slices ![0, 0] S1x20
  bcast_S1x20_S1024x20_0_1 : S1x20.BroadcastsInDim S1024x20 (![0, 1] : Fin 2 → Fin S1024x20.rank)
  slices_S12x20_S1x20_11_0 : S12x20.Slices ![11, 0] S1x20
  bcast_S1024x1_S1024x20_0_1 : S1024x1.BroadcastsInDim S1024x20 (![0, 1] : Fin 2 → Fin S1024x20.rank)
  bcast_S20_S1x20_1 : S20.BroadcastsInDim S1x20 (![1] : Fin 1 → Fin S1x20.rank)
  shapeCasts_S500_S1x500 : S500.ShapeCasts S1x500
  shapeCasts_S200_S1x200 : S200.ShapeCasts S1x200
  shapeCasts_S20_S1x20 : S20.ShapeCasts S1x20
  inb_S1024x1024_S1024x1024_0_0 : ∀ a, (![0, 0] : Fin 2 → Nat) a + S1024x1024.size a ≤ S1024x1024.size a
  h_S1024x1024 : 0 < S1024x1024.numel
  inb_S1024x20_S1024x20_0_0 : ∀ a, (![0, 0] : Fin 2 → Nat) a + S1024x20.size a ≤ S1024x20.size a
  h_S1024x20 : 0 < S1024x20.numel
  shapeCasts_S1024x20_S1024x20 : S1024x20.ShapeCasts S1024x20
  inb_S20x500_S20x500_0_0 : ∀ a, (![0, 0] : Fin 2 → Nat) a + S20x500.size a ≤ S20x500.size a
  h_S20x500 : 0 < S20x500.numel
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S1024x500 : S1x500.Broadcasts S1024x500
  inb_S500x200_S500x200_0_0 : ∀ a, (![0, 0] : Fin 2 → Nat) a + S500x200.size a ≤ S500x200.size a
  h_S500x200 : 0 < S500x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S1024x200 : S1x200.Broadcasts S1024x200
  inb_S200x20_S200x20_0_0 : ∀ a, (![0, 0] : Fin 2 → Nat) a + S200x20.size a ≤ S200x20.size a
  h_S200x20 : 0 < S200x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S1024x20 : S1x20.Broadcasts S1024x20
  slices_S1024x20_o0_0_S1024x10 : S1024x20.Slices ![0, 0] S1024x10
  inb_S1024x10_S1024x10_0_0 : ∀ a, (![0, 0] : Fin 2 → Nat) a + S1024x10.size a ≤ S1024x10.size a
  h_S1024x10 : 0 < S1024x10.numel
  slices_S1024x20_o0_10_S1024x10 : S1024x20.Slices ![0, 10] S1024x10
  dot_S1024x10_S10x20_S1024x20_1_0_0_1_n_n_wf : DotDims.WF S1024x10 S10x20 S1024x20 [1] [0] [0] [1] [] []
  dot_S1024x1024_S1024x20_S1024x20_1_0_0_1_n_n_wf : DotDims.WF S1024x1024 S1024x20 S1024x20 [1] [0] [0] [1] [] []
  dot_S1024x20_S20x500_S1024x500_1_0_0_1_n_n_wf : DotDims.WF S1024x20 S20x500 S1024x500 [1] [0] [0] [1] [] []
  dot_S1024x500_S500x200_S1024x200_1_0_0_1_n_n_wf : DotDims.WF S1024x500 S500x200 S1024x200 [1] [0] [0] [1] [] []
  dot_S1024x200_S200x20_S1024x20_1_0_0_1_n_n_wf : DotDims.WF S1024x200 S200x20 S1024x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x20.size a ≤ S1024x20.size a
  hwx0_2 : ∀ i : grid0.Coords, EltTy.bits .f32 = 32 ∨ (Rect.block (s := S1024x20) S1024x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x20.size a ≤ S1024x20.size a
  hwx0_3 : ∀ i : grid0.Coords, EltTy.bits .f32 = 32 ∨ (Rect.block (s := S1024x20) S1024x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x500.size a ≤ S20x500.size a
  hwx0_4 : ∀ i : grid0.Coords, EltTy.bits .f32 = 32 ∨ (Rect.block (s := S20x500) S20x500.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x500.size a ≤ S1x500.size a
  hwx0_5 : ∀ i : grid0.Coords, EltTy.bits .f32 = 32 ∨ (Rect.block (s := S1x500) S1x500.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S500x200.size a ≤ S500x200.size a
  hwx0_6 : ∀ i : grid0.Coords, EltTy.bits .f32 = 32 ∨ (Rect.block (s := S500x200) S500x200.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x200.size a ≤ S1x200.size a
  hwx0_7 : ∀ i : grid0.Coords, EltTy.bits .f32 = 32 ∨ (Rect.block (s := S1x200) S1x200.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S200x20.size a ≤ S200x20.size a
  hwx0_8 : ∀ i : grid0.Coords, EltTy.bits .f32 = 32 ∨ (Rect.block (s := S200x20) S200x20.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x20.size a ≤ S1x20.size a
  hwx0_9 : ∀ i : grid0.Coords, EltTy.bits .f32 = 32 ∨ (Rect.block (s := S1x20) S1x20.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x10.size a ≤ S4096x10.size a
  hwx0_10 : ∀ i : grid0.Coords, EltTy.bits .f32 = 32 ∨ (Rect.block (s := S4096x10) S1024x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x10.size a ≤ S4096x10.size a
  hwx0_11 : ∀ i : grid0.Coords, EltTy.bits .f32 = 32 ∨ (Rect.block (s := S4096x10) S1024x10.size (cc0_transform_11 i) (hinb0_11 i)).WholeWords (EltTy.packing .f32)

variable [Facts₀]

def dot_S1024x10_S10x20_S1024x20_1_0_0_1_n_n : DotDims S1024x10 S10x20 S1024x20 where
  lhsContracting := [1]
  rhsContracting := [0]
  lhsNonContracting := [0]
  rhsNonContracting := [1]
  lhsBatch := []
  rhsBatch := []
  wf := dot_S1024x10_S10x20_S1024x20_1_0_0_1_n_n_wf
def dot_S1024x1024_S1024x20_S1024x20_1_0_0_1_n_n : DotDims S1024x1024 S1024x20 S1024x20 where
  lhsContracting := [1]
  rhsContracting := [0]
  lhsNonContracting := [0]
  rhsNonContracting := [1]
  lhsBatch := []
  rhsBatch := []
  wf := dot_S1024x1024_S1024x20_S1024x20_1_0_0_1_n_n_wf
def dot_S1024x20_S20x500_S1024x500_1_0_0_1_n_n : DotDims S1024x20 S20x500 S1024x500 where
  lhsContracting := [1]
  rhsContracting := [0]
  lhsNonContracting := [0]
  rhsNonContracting := [1]
  lhsBatch := []
  rhsBatch := []
  wf := dot_S1024x20_S20x500_S1024x500_1_0_0_1_n_n_wf
def dot_S1024x500_S500x200_S1024x200_1_0_0_1_n_n : DotDims S1024x500 S500x200 S1024x200 where
  lhsContracting := [1]
  rhsContracting := [0]
  lhsNonContracting := [0]
  rhsNonContracting := [1]
  lhsBatch := []
  rhsBatch := []
  wf := dot_S1024x500_S500x200_S1024x200_1_0_0_1_n_n_wf
def dot_S1024x200_S200x20_S1024x20_1_0_0_1_n_n : DotDims S1024x200 S200x20 S1024x20 where
  lhsContracting := [1]
  rhsContracting := [0]
  lhsNonContracting := [0]
  rhsNonContracting := [1]
  lhsBatch := []
  rhsBatch := []
  wf := dot_S1024x200_S200x20_S1024x20_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S20x500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x500.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S500x200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x200.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S200x20.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x20.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15_0) S1024x10.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v15_1) S1024x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x10 : Shape := ⟨2, ![1024, 10]⟩
abbrev S1024x1 : Shape := ⟨2, ![1024, 1]⟩
abbrev S12x20 : Shape := ⟨2, ![12, 20]⟩
abbrev S20 : Shape := ⟨1, ![20]⟩
abbrev S20x500 : Shape := ⟨2, ![20, 500]⟩
abbrev S500 : Shape := ⟨1, ![500]⟩
abbrev S500x200 : Shape := ⟨2, ![500, 200]⟩
abbrev S200 : Shape := ⟨1, ![200]⟩
abbrev S200x20 : Shape := ⟨2, ![200, 20]⟩
abbrev S4096x1024x1 : Shape := ⟨3, ![4096, 1024, 1]⟩
abbrev S1x1024x10 : Shape := ⟨3, ![1, 1024, 10]⟩
abbrev S4096x1024x10 : Shape := ⟨3, ![4096, 1024, 10]⟩
abbrev S1x1024x1 : Shape := ⟨3, ![1, 1024, 1]⟩
abbrev S4096x1024x12 : Shape := ⟨3, ![4096, 1024, 12]⟩
abbrev S4096x1024x20 : Shape := ⟨3, ![4096, 1024, 20]⟩
abbrev S1x1x20 : Shape := ⟨3, ![1, 1, 20]⟩
abbrev S_ : Shape := ⟨0, ![]⟩
abbrev S4096x20 : Shape := ⟨2, ![4096, 20]⟩
abbrev S4096x500 : Shape := ⟨2, ![4096, 500]⟩
abbrev S1x500 : Shape := ⟨2, ![1, 500]⟩
abbrev S4096x200 : Shape := ⟨2, ![4096, 200]⟩
abbrev S1x200 : Shape := ⟨2, ![1, 200]⟩
abbrev S1x20 : Shape := ⟨2, ![1, 20]⟩
abbrev S4096x10 : Shape := ⟨2, ![4096, 10]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x10, .f32⟩
  | .hbm, ⟨3, _⟩ => ⟨S1024x1, .f32⟩
  | .hbm, ⟨4, _⟩ => ⟨S12x20, .f32⟩
  | .hbm, ⟨5, _⟩ => ⟨S20, .f32⟩
  | .hbm, ⟨6, _⟩ => ⟨S20x500, .f32⟩
  | .hbm, ⟨7, _⟩ => ⟨S500, .f32⟩
  | .hbm, ⟨8, _⟩ => ⟨S500x200, .f32⟩
  | .hbm, ⟨9, _⟩ => ⟨S200, .f32⟩
  | .hbm, ⟨10, _⟩ => ⟨S200x20, .f32⟩
  | .hbm, ⟨11, _⟩ => ⟨S20, .f32⟩
  | .hbm, ⟨12, _⟩ => ⟨S4096x1024x1, .f32⟩
  | .hbm, ⟨13, _⟩ => ⟨S1x1024x10, .f32⟩
  | .hbm, ⟨14, _⟩ => ⟨S4096x1024x10, .f32⟩
  | .hbm, ⟨15, _⟩ => ⟨S4096x1024x10, .f32⟩
  | .hbm, ⟨16, _⟩ => ⟨S4096x1024x10, .f32⟩
  | .hbm, ⟨17, _⟩ => ⟨S1x1024x1, .f32⟩
  | .hbm, ⟨18, _⟩ => ⟨S4096x1024x1, .f32⟩
  | .hbm, ⟨19, _⟩ => ⟨S4096x1024x12, .f32⟩
  | .hbm, ⟨20, _⟩ => ⟨S4096x1024x20, .f32⟩
  | .hbm, ⟨21, _⟩ => ⟨S1x1x20, .f32⟩
  | .hbm, ⟨22, _⟩ => ⟨S4096x1024x20, .f32⟩
  | .hbm, ⟨23, _⟩ => ⟨S4096x1024x20, .f32⟩
  | .hbm, ⟨24, _⟩ => ⟨S4096x1024x1, .f32⟩
  | .hbm, ⟨25, _⟩ => ⟨S4096x1024x20, .f32⟩
  | .hbm, ⟨26, _⟩ => ⟨S4096x1024x20, .f32⟩
  | .hbm, ⟨27, _⟩ => ⟨S_, .f32⟩
  | .hbm, ⟨28, _⟩ => ⟨S4096x20, .f32⟩
  | .hbm, ⟨29, _⟩ => ⟨S_, .f32⟩
  | .hbm, ⟨30, _⟩ => ⟨S4096x20, .f32⟩
  | .hbm, ⟨31, _⟩ => ⟨S4096x20, .f32⟩
  | .hbm, ⟨32, _⟩ => ⟨S4096x500, .f32⟩
  | .hbm, ⟨33, _⟩ => ⟨S1x500, .f32⟩
  | .hbm, ⟨34, _⟩ => ⟨S4096x500, .f32⟩
  | .hbm, ⟨35, _⟩ => ⟨S4096x500, .f32⟩
  | .hbm, ⟨36, _⟩ => ⟨S_, .f32⟩
  | .hbm, ⟨37, _⟩ => ⟨S4096x500, .f32⟩
  | .hbm, ⟨38, _⟩ => ⟨S4096x500, .f32⟩
  | .hbm, ⟨39, _⟩ => ⟨S4096x200, .f32⟩
  | .hbm, ⟨40, _⟩ => ⟨S1x200, .f32⟩
  | .hbm, ⟨41, _⟩ => ⟨S4096x200, .f32⟩
  | .hbm, ⟨42, _⟩ => ⟨S4096x200, .f32⟩
  | .hbm, ⟨43, _⟩ => ⟨S_, .f32⟩
  | .hbm, ⟨44, _⟩ => ⟨S4096x200, .f32⟩
  | .hbm, ⟨45, _⟩ => ⟨S4096x200, .f32⟩
  | .hbm, ⟨46, _⟩ => ⟨S4096x20, .f32⟩
  | .hbm, ⟨47, _⟩ => ⟨S1x20, .f32⟩
  | .hbm, ⟨48, _⟩ => ⟨S4096x20, .f32⟩
  | .hbm, ⟨49, _⟩ => ⟨S4096x20, .f32⟩
  | .hbm, ⟨50, _⟩ => ⟨S4096x10, .f32⟩
  | .hbm, ⟨51, _⟩ => ⟨S4096x10, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_cst : Ref sig .tc := ⟨.hbm, 36, rfl⟩
abbrev main_call1_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call2_cst : Ref sig .tc := ⟨.hbm, 43, rfl⟩
abbrev main_call2_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  bcast_S4096x1024_S4096x1024x1_0_1 : S4096x1024.BroadcastsInDim S4096x1024x1 (![0, 1] : Fin 2 → Fin S4096x1024x1.rank)
  bcast_S1024x10_S1x1024x10_1_2 : S1024x10.BroadcastsInDim S1x1024x10 (![1, 2] : Fin 2 → Fin S1x1024x10.rank)
  bcast_S4096x1024x1_S4096x1024x10_0_1_2 : S4096x1024x1.BroadcastsInDim S4096x1024x10 (![0, 1, 2] : Fin 3 → Fin S4096x1024x10.rank)
  bcast_S1x1024x10_S4096x1024x10_0_1_2 : S1x1024x10.BroadcastsInDim S4096x1024x10 (![0, 1, 2] : Fin 3 → Fin S4096x1024x10.rank)
  bcast_S1024x1_S1x1024x1_1_2 : S1024x1.BroadcastsInDim S1x1024x1 (![1, 2] : Fin 2 → Fin S1x1024x1.rank)
  bcast_S1x1024x1_S4096x1024x1_0_1_2 : S1x1024x1.BroadcastsInDim S4096x1024x1 (![0, 1, 2] : Fin 3 → Fin S4096x1024x1.rank)
  concatenates_S4096x1024x1_S4096x1024x10_S4096x1024x1_S4096x1024x12_d2 : Shape.Concatenates [S4096x1024x1, S4096x1024x10, S4096x1024x1] S4096x1024x12 2
  bcast_S20_S1x1x20_2 : S20.BroadcastsInDim S1x1x20 (![2] : Fin 1 → Fin S1x1x20.rank)
  bcast_S1x1x20_S4096x1024x20_0_1_2 : S1x1x20.BroadcastsInDim S4096x1024x20 (![0, 1, 2] : Fin 3 → Fin S4096x1024x20.rank)
  bcast_S4096x1024x1_S4096x1024x20_0_1_2 : S4096x1024x1.BroadcastsInDim S4096x1024x20 (![0, 1, 2] : Fin 3 → Fin S4096x1024x20.rank)
  reducesTo_S4096x1024x20_S4096x20_d1 : S4096x1024x20.ReducesTo [1] S4096x20
  h_S_ : 0 < S_.numel
  bcast_S_S4096x20 : S_.BroadcastsInDim S4096x20 (![] : Fin 0 → Fin S4096x20.rank)
  bcast_S500_S1x500_1 : S500.BroadcastsInDim S1x500 (![1] : Fin 1 → Fin S1x500.rank)
  bcast_S1x500_S4096x500_0_1 : S1x500.BroadcastsInDim S4096x500 (![0, 1] : Fin 2 → Fin S4096x500.rank)
  bcast_S_S4096x500 : S_.BroadcastsInDim S4096x500 (![] : Fin 0 → Fin S4096x500.rank)
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  bcast_S_S4096x200 : S_.BroadcastsInDim S4096x200 (![] : Fin 0 → Fin S4096x200.rank)
  bcast_S20_S1x20_1 : S20.BroadcastsInDim S1x20 (![1] : Fin 1 → Fin S1x20.rank)
  bcast_S1x20_S4096x20_0_1 : S1x20.BroadcastsInDim S4096x20 (![0, 1] : Fin 2 → Fin S4096x20.rank)
  slices_S4096x20_S4096x10_0_0 : S4096x20.Slices ![0, 0] S4096x10
  slices_S4096x20_S4096x10_0_10 : S4096x20.Slices ![0, 10] S4096x10
  dot_S4096x1024x12_S12x20_S4096x1024x20_2_0_01_1_n_n_wf : DotDims.WF S4096x1024x12 S12x20 S4096x1024x20 [2] [0] [0, 1] [1] [] []
  dot_S4096x20_S20x500_S4096x500_1_0_0_1_n_n_wf : DotDims.WF S4096x20 S20x500 S4096x500 [1] [0] [0] [1] [] []
  dot_S4096x500_S500x200_S4096x200_1_0_0_1_n_n_wf : DotDims.WF S4096x500 S500x200 S4096x200 [1] [0] [0] [1] [] []
  dot_S4096x200_S200x20_S4096x20_1_0_0_1_n_n_wf : DotDims.WF S4096x200 S200x20 S4096x20 [1] [0] [0] [1] [] []

variable [Facts₀]

def dot_S4096x1024x12_S12x20_S4096x1024x20_2_0_01_1_n_n : DotDims S4096x1024x12 S12x20 S4096x1024x20 where
  lhsContracting := [2]
  rhsContracting := [0]
  lhsNonContracting := [0, 1]
  rhsNonContracting := [1]
  lhsBatch := []
  rhsBatch := []
  wf := dot_S4096x1024x12_S12x20_S4096x1024x20_2_0_01_1_n_n_wf
def dot_S4096x20_S20x500_S4096x500_1_0_0_1_n_n : DotDims S4096x20 S20x500 S4096x500 where
  lhsContracting := [1]
  rhsContracting := [0]
  lhsNonContracting := [0]
  rhsNonContracting := [1]
  lhsBatch := []
  rhsBatch := []
  wf := dot_S4096x20_S20x500_S4096x500_1_0_0_1_n_n_wf
def dot_S4096x500_S500x200_S4096x200_1_0_0_1_n_n : DotDims S4096x500 S500x200 S4096x200 where
  lhsContracting := [1]
  rhsContracting := [0]
  lhsNonContracting := [0]
  rhsNonContracting := [1]
  lhsBatch := []
  rhsBatch := []
  wf := dot_S4096x500_S500x200_S4096x200_1_0_0_1_n_n_wf
def dot_S4096x200_S200x20_S4096x20_1_0_0_1_n_n : DotDims S4096x200 S200x20 S4096x20 where
  lhsContracting := [1]
  rhsContracting := [0]
  lhsNonContracting := [0]
  rhsNonContracting := [1]
  lhsBatch := []
  rhsBatch := []
  wf := dot_S4096x200_S200x20_S4096x20_1_0_0_1_n_n_wf

class Facts : Prop extends Facts₀ where

variable [Facts]
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Spec.lean ====
/-
  The mathematics both programs compute, stated once, index by index, over the extended reals.

  A batch row b of the input carries 1024 points x(b,d) with a 0/1 weight w(b,d).  Each point is expanded to twelve
  features  ( x, x·F(d,0), …, x·F(d,9), β(d) ),  sent through one dense layer W1 (12 × 20) with bias b1, weighted by w and
  summed over the points:

      preR(b,k) = 0 + Σ_d ( Σ_f feat(b,d,f) · W1(f,k) + b1(k) ) · w(b,d).

  Folding the twelve features into two per-point tables,
      A(d,k) = Σ_j F(d,j) · W1(1+j,k) + W1(0,k),      C(d,k) = β(d) · W1(11,k) + b1(k),
  gives the second form

      preK(b,k) = Σ_d (x(b,d) · w(b,d)) · A(d,k) + Σ_d w(b,d) · C(d,k).

  Over the reals the two are equal by distributivity (the proof is in another module; it needs every entry finite,
  since x · (a + b) = x·a + x·b fails at infinities).  After the pooling both programs apply max(·, 0) and the same three
  dense layers 20 → 500 → 200 → 20, row by row; the first ten output columns are the first result, the last ten the second.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals, indexed as the programs index their rank-2 arrays. -/
abbrev Mat (r c : Nat) : Type := (⟨2, ![r, c]⟩ : Shape).Idx → EReal
/-- A vector of extended reals, indexed as the programs index their rank-1 arrays. -/
abbrev Row (n : Nat) : Type := (⟨1, ![n]⟩ : Shape).Idx → EReal

/-- Every entry is a real number. -/
def IsReal {ι : Type} (a : ι → EReal) : Prop := ∀ i, ∃ r : ℝ, a i = (r : EReal)

/-- The float zero both programs compare against. -/
abbrev zero32 : EReal := Ideal.ofBits .f32 0x00000000#32

/-- max(v, 0). -/
def relu (v : EReal) : EReal := max v zero32

/-- One dense layer applied to a row: Σ_k h(k) · W(k,n) + b(n). -/
def dense {K N : Nat} (h : Fin K → EReal) (W : Mat K N) (b : Row N) (n : Fin N) : EReal :=
  (∑ k : Fin K, h k * W (ix2 k n)) + b (ix1 n)

/-- The three dense layers after the pooling, on one pooled row p. -/
def mlp (p : Fin 20 → EReal) (W2 : Mat 20 500) (b2 : Row 500) (W3 : Mat 500 200) (b3 : Row 200) (W4 : Mat 200 20) (b4 : Row 20)
    (n : Fin 20) : EReal :=
  dense (fun k => relu (dense (fun j => relu (dense p W2 b2 j)) W3 b3 k)) W4 b4 n

/-- The folded slope table A(d,k) = Σ_j F(d,j) · W1(1+j,k) + W1(0,k). -/
def tabA (Fm : Mat 1024 10) (W1 : Mat 12 20) (d : Fin 1024) (k : Fin 20) : EReal :=
  (∑ j : Fin 10, Fm (ix2 d j) * W1 (ix2 (⟨j.val + 1, by omega⟩ : Fin 12) k)) + W1 (ix2 (⟨0, by decide⟩ : Fin 12) k)

/-- The folded offset table C(d,k) = β(d) · W1(11,k) + b1(k). -/
def tabC (bp : Mat 1024 1) (W1 : Mat 12 20) (b1 : Row 20) (d : Fin 1024) (k : Fin 20) : EReal :=
  bp (ix2 d (⟨0, by decide⟩ : Fin 1)) * W1 (ix2 (⟨11, by decide⟩ : Fin 12) k) + b1 (ix1 k)

/-- The pooled pre-activation in the folded form. -/
def preK (x mk : Mat 4096 1024) (Fm : Mat 1024 10) (bp : Mat 1024 1) (W1 : Mat 12 20) (b1 : Row 20) (b : Fin 4096) (k : Fin 20) : EReal :=
  (∑ d : Fin 1024, (x (ix2 b d) * mk (ix2 b d)) * tabA Fm W1 d k) + (∑ d : Fin 1024, mk (ix2 b d) * tabC bp W1 b1 d k)

/-- The twelve features of point d of row b: x, then x·F(d,0..9), then β(d). -/
def feat (x : Mat 4096 1024) (Fm : Mat 1024 10) (bp : Mat 1024 1) (b : Fin 4096) (d : Fin 1024) (f : Fin 12) : EReal :=
  if h0 : f.val < 1 then x (ix2 b d)
  else if h1 : f.val < 11 then x (ix2 b d) * Fm (ix2 d (⟨f.val - 1, by omega⟩ : Fin 10))
  else bp (ix2 d (⟨0, by decide⟩ : Fin 1))

/-- The pooled pre-activation in the feature form. -/
def preR (x mk : Mat 4096 1024) (Fm : Mat 1024 10) (bp : Mat 1024 1) (W1 : Mat 12 20) (b1 : Row 20) (b : Fin 4096) (k : Fin 20) : EReal :=
  zero32 + ∑ d : Fin 1024, ((∑ f : Fin 12, feat x Fm bp b d f * W1 (ix2 f k)) + b1 (ix1 k)) * mk (ix2 b d)

/-- Row b, column n of the last layer's output, from a pooled pre-activation `pre`. -/
def outOf (pre : Fin 4096 → Fin 20 → EReal) (W2 : Mat 20 500) (b2 : Row 500) (W3 : Mat 500 200) (b3 : Row 200) (W4 : Mat 200 20) (b4 : Row 20)
    (b : Fin 4096) (n : Fin 20) : EReal :=
  mlp (fun k => relu (pre b k)) W2 b2 W3 b3 W4 b4 n

/-- The first result: columns 0..9 of the output. -/
def lo (o : Fin 4096 → Fin 20 → EReal) : Mat 4096 10 := fun i => o (i 0) (⟨(i 1).val, by have := idx2_lt1 i; omega⟩ : Fin 20)
/-- The second result: columns 10..19 of the output. -/
def hi (o : Fin 4096 → Fin 20 → EReal) : Mat 4096 10 := fun i => o (i 0) (⟨(i 1).val + 10, by have := idx2_lt1 i; omega⟩ : Fin 20)

theorem lo_apply (o : Fin 4096 → Fin 20 → EReal) (b : Fin 4096) (q : Fin 10) : lo o (ix2 b q) = o b (⟨q.val, by omega⟩ : Fin 20) := rfl
theorem hi_apply (o : Fin 4096 → Fin 20 → EReal) (b : Fin 4096) (q : Fin 10) : hi o (ix2 b q) = o b (⟨q.val + 10, by omega⟩ : Fin 20) := rfl

end Cert.Spec

end
-- ==== Proof.KernelRow.lean ====
/-
  One row of the kernel's block computation, read at an index.

  On a block of 1024 batch rows the body computes, for row p:
      pooled(k)  = max( Σ_d (x(p,d)·w(p,d))·A(d,k) + Σ_d w(p,d)·C(d,k), 0 ),
  then three dense layers with max(·,0) between them.  Each matrix product starts from the zero accumulator, so at the
  extended reals it is the plain finite sum over the contracted axis; each bias is a one-row matrix laid down the rows.
  Nothing here mixes rows: the value at (p, n) depends on row p of the two streamed blocks only.
-/
import proofs.«155877_j15333033247098_1_alg».proof.Proof.Gen.KernelIdeal.Skeleton
import proofs.«155877_j15333033247098_1_alg».proof.Proof.LibPlainDot
import proofs.«155877_j15333033247098_1_alg».proof.Proof.Spec
import Idealize.ShloMosaic.Lib.ValueLayout

noncomputable section

open scoped BigOperators

namespace Cert.KernelIdeal.RowValue

open Cert.KernelIdeal Cert.KernelIdeal.Gen Idealize.ShloMosaic Idealize.ShloMosaic.ValueIdx Cert.Spec Cert.LibPlainDot

/-- The one row of a one-row matrix, as a vector. -/
def rowOf {N : Nat} (v : Mat 1 N) : Row N := fun i => v (ix2 (0 : Fin 1) (i 0))

/-- A matrix product into the zero accumulator whose dimension numbers are the plain ones, at (p, n). -/
theorem mm_apply {M K N : Nat} (d : DotDims ⟨2, ![M, K]⟩ ⟨2, ![K, N]⟩ ⟨2, ![M, N]⟩) (hd : d = DotDims.plain M K N)
    (h : FVec Ideal ⟨2, ![M, K]⟩ .f32) (W : FVec Ideal ⟨2, ![K, N]⟩ .f32) (p : Fin M) (n : Fin N) :
    FloatOps.matmul d none h W (constant ⟨2, ![M, N]⟩ .f32 0x00000000#32) (ix2 p n) = ∑ k : Fin K, h (ix2 p k) * W (ix2 k n) := by
  subst hd
  exact matmul_plain_zero none h W (ix2 p n)

/-- A dense layer in the body's spelling — product into zero, plus the bias row laid down the rows — at (p, n). -/
theorem layer_apply {M K N : Nat} (d : DotDims ⟨2, ![M, K]⟩ ⟨2, ![K, N]⟩ ⟨2, ![M, N]⟩) (hd : d = DotDims.plain M K N)
    (h : FVec Ideal ⟨2, ![M, K]⟩ .f32) (W : FVec Ideal ⟨2, ![K, N]⟩ .f32) (bv : FVec Ideal ⟨2, ![1, N]⟩ .f32)
    (hs : (⟨2, ![1, N]⟩ : Shape).ShapeCasts ⟨2, ![1, N]⟩) (hb : (⟨2, ![1, N]⟩ : Shape).Broadcasts ⟨2, ![M, N]⟩) (p : Fin M) (n : Fin N) :
    addf (FloatOps.matmul d none h W (constant ⟨2, ![M, N]⟩ .f32 0x00000000#32)) (broadcastTo ⟨2, ![M, N]⟩ (shapeCast ⟨2, ![1, N]⟩ bv hs) hb) (ix2 p n)
      = dense (fun k => h (ix2 p k)) W (rowOf bv) n := by
  show FloatOps.matmul d none h W (constant ⟨2, ![M, N]⟩ .f32 0x00000000#32) (ix2 p n) + broadcastTo ⟨2, ![M, N]⟩ (shapeCast ⟨2, ![1, N]⟩ bv hs) hb (ix2 p n) = _
  rw [mm_apply d hd, shapeCast_self, broadcastTo_1b_ab_apply]
  rfl

/-- The same followed by max(·, 0). -/
theorem relu_layer_apply {M K N : Nat} (d : DotDims ⟨2, ![M, K]⟩ ⟨2, ![K, N]⟩ ⟨2, ![M, N]⟩) (hd : d = DotDims.plain M K N)
    (h : FVec Ideal ⟨2, ![M, K]⟩ .f32) (W : FVec Ideal ⟨2, ![K, N]⟩ .f32) (bv : FVec Ideal ⟨2, ![1, N]⟩ .f32)
    (hs : (⟨2, ![1, N]⟩ : Shape).ShapeCasts ⟨2, ![1, N]⟩) (hb : (⟨2, ![1, N]⟩ : Shape).Broadcasts ⟨2, ![M, N]⟩) (p : Fin M) (n : Fin N) :
    maximumf (addf (FloatOps.matmul d none h W (constant ⟨2, ![M, N]⟩ .f32 0x00000000#32)) (broadcastTo ⟨2, ![M, N]⟩ (shapeCast ⟨2, ![1, N]⟩ bv hs) hb))
        (broadcast ⟨2, ![M, N]⟩ (Scalar.ofBits (F := Ideal) .f32 0x00000000#32)) (ix2 p n)
      = relu (dense (fun k => h (ix2 p k)) W (rowOf bv) n) := by
  show max (addf (FloatOps.matmul d none h W (constant ⟨2, ![M, N]⟩ .f32 0x00000000#32)) (broadcastTo ⟨2, ![M, N]⟩ (shapeCast ⟨2, ![1, N]⟩ bv hs) hb) (ix2 p n)) zero32 = _
  rw [layer_apply d hd]
  rfl

/-! ## The printed dimension numbers are the plain ones -/

theorem dotA_eq : dot_S1024x1024_S1024x20_S1024x20_1_0_0_1_n_n = DotDims.plain 1024 1024 20 := rfl
theorem dot2_eq : dot_S1024x20_S20x500_S1024x500_1_0_0_1_n_n = DotDims.plain 1024 20 500 := rfl
theorem dot3_eq : dot_S1024x500_S500x200_S1024x200_1_0_0_1_n_n = DotDims.plain 1024 500 200 := rfl
theorem dot4_eq : dot_S1024x200_S200x20_S1024x20_1_0_0_1_n_n = DotDims.plain 1024 200 20 := rfl

/-! ## The pooling stage -/

/-- The pooled pre-activation of block row p, from the two streamed blocks and the two tables. -/
def preBlk (P0 P1 : Mat 1024 1024) (P2 P3 : Mat 1024 20) (p : Fin 1024) (k : Fin 20) : EReal :=
  (∑ d : Fin 1024, (P0 (ix2 p d) * P1 (ix2 p d)) * P2 (ix2 d k)) + ∑ d : Fin 1024, P1 (ix2 p d) * P3 (ix2 d k)

/-- The body's pooled vector: two products into zero, added, then max with 0. -/
def pooledVec (P0 P1 : FVec Ideal S1024x1024 .f32) (P2 P3 : FVec Ideal S1024x20 .f32) : FVec Ideal S1024x20 .f32 :=
  maximumf
    (addf
      (FloatOps.matmul dot_S1024x1024_S1024x20_S1024x20_1_0_0_1_n_n none (mulf P0 P1) (shapeCast S1024x20 P2 shapeCasts_S1024x20_S1024x20) (constant S1024x20 .f32 0x00000000#32))
      (FloatOps.matmul dot_S1024x1024_S1024x20_S1024x20_1_0_0_1_n_n none P1 (shapeCast S1024x20 P3 shapeCasts_S1024x20_S1024x20) (constant S1024x20 .f32 0x00000000#32)))
    (broadcast S1024x20 (Scalar.ofBits (F := Ideal) .f32 0x00000000#32))

theorem pooledVec_apply (P0 P1 : FVec Ideal S1024x1024 .f32) (P2 P3 : FVec Ideal S1024x20 .f32) (p : Fin 1024) (k : Fin 20) :
    pooledVec P0 P1 P2 P3 (ix2 p k) = relu (preBlk P0 P1 P2 P3 p k) := by
  show max (FloatOps.matmul dot_S1024x1024_S1024x20_S1024x20_1_0_0_1_n_n none (mulf P0 P1) (shapeCast S1024x20 P2 shapeCasts_S1024x20_S1024x20) (constant S1024x20 .f32 0x00000000#32) (ix2 p k)
      + FloatOps.matmul dot_S1024x1024_S1024x20_S1024x20_1_0_0_1_n_n none P1 (shapeCast S1024x20 P3 shapeCasts_S1024x20_S1024x20) (constant S1024x20 .f32 0x00000000#32) (ix2 p k)) zero32 = _
  rw [mm_apply _ dotA_eq, mm_apply _ dotA_eq, shapeCast_self, shapeCast_self]
  rfl

/-! ## The whole payload -/

/-- The last product's value as the explicit tree of the body's vector operations. -/
theorem pay4_eq (P0 P1 : FVec Ideal S1024x1024 .f32) (P2 P3 : FVec Ideal S1024x20 .f32) (P4 : FVec Ideal S20x500 .f32) (P5 : FVec Ideal S1x500 .f32)
    (P6 : FVec Ideal S500x200 .f32) (P7 : FVec Ideal S1x200 .f32) (P8 : FVec Ideal S200x20 .f32) :
    k0_pay4 (F := Ideal) P0 P1 P2 P3 P4 P5 P6 P7 P8
      = FloatOps.matmul dot_S1024x200_S200x20_S1024x20_1_0_0_1_n_n none
          (maximumf (addf (FloatOps.matmul dot_S1024x500_S500x200_S1024x200_1_0_0_1_n_n none
              (maximumf (addf (FloatOps.matmul dot_S1024x20_S20x500_S1024x500_1_0_0_1_n_n none (pooledVec P0 P1 P2 P3) P4 (constant S1024x500 .f32 0x00000000#32))
                  (broadcastTo S1024x500 (shapeCast S1x500 P5 shapeCasts_S1x500_S1x500) broadcasts_S1x500_S1024x500))
                (broadcast S1024x500 (Scalar.ofBits (F := Ideal) .f32 0x00000000#32)))
              P6 (constant S1024x200 .f32 0x00000000#32))
            (broadcastTo S1024x200 (shapeCast S1x200 P7 shapeCasts_S1x200_S1x200) broadcasts_S1x200_S1024x200))
            (broadcast S1024x200 (Scalar.ofBits (F := Ideal) .f32 0x00000000#32)))
          P8 (constant S1024x20 .f32 0x00000000#32) := rfl

/-- The last product at (p, n): the third layer's sum over the second layer's activations of row p. -/
theorem pay4_apply (P0 P1 : FVec Ideal S1024x1024 .f32) (P2 P3 : FVec Ideal S1024x20 .f32) (P4 : FVec Ideal S20x500 .f32) (P5 : FVec Ideal S1x500 .f32)
    (P6 : FVec Ideal S500x200 .f32) (P7 : FVec Ideal S1x200 .f32) (P8 : FVec Ideal S200x20 .f32) (p : Fin 1024) (n : Fin 20) :
    k0_pay4 (F := Ideal) P0 P1 P2 P3 P4 P5 P6 P7 P8 (ix2 p n)
      = ∑ k : Fin 200, relu (dense (fun j => relu (dense (fun k' => relu (preBlk P0 P1 P2 P3 p k')) P4 (rowOf P5) j)) P6 (rowOf P7) k) * P8 (ix2 k n) := by
  rw [pay4_eq, mm_apply _ dot4_eq]
  refine Finset.sum_congr rfl fun k _ => congrArg (· * P8 (ix2 k n)) ?_
  rw [relu_layer_apply _ dot3_eq]
  refine congrArg relu (congrArg (fun h => dense h P6 (rowOf P7) k) (funext fun j => ?_))
  rw [relu_layer_apply _ dot2_eq]
  exact congrArg relu (congrArg (fun h => dense h P4 (rowOf P5) j) (funext fun k' => pooledVec_apply P0 P1 P2 P3 p k'))

end Cert.KernelIdeal.RowValue

end
-- ==== Proof.KernelTables.lean ====
/-
  What the kernel's region finds in the arrays the host computed before it: the two folded tables and the three biases
  recast as one-row matrices.

  Each array is first written as the host operations' term of the program's arguments; the term is then read at an index:
  a slice reads its operand further along, a broadcast reads its operand at the coordinates it keeps (0 on a unit axis),
  a recast keeps the row-major position, and the matrix product with one contracted axis is the finite sum over it.
-/
import proofs.«155877_j15333033247098_1_alg».proof.Proof.Gen.KernelIdeal.Frame
import proofs.«155877_j15333033247098_1_alg».proof.Proof.Spec
import proofs.«155877_j15333033247098_1_alg».proof.Proof.LibPlainDot

noncomputable section

open scoped BigOperators

namespace Cert.KernelIdeal.Tables

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## Reading the layout operations at an index -/

/-- A row slice of the 12 × 20 weight matrix reads the matrix `o` rows further down. -/
theorem sliceRows_apply {R : Nat} (o : Nat) (W : (⟨2, ![12, 20]⟩ : Shape).Idx → EReal)
    (h : (⟨2, ![12, 20]⟩ : Shape).Slices ![o, 0] ⟨2, ![R, 20]⟩) (j : Fin R) (k : Fin 20) (hj : j.val + o < 12) :
    extractStridedSlice ⟨2, ![R, 20]⟩ ![o, 0] W h (ix2 j k) = W (ix2 (⟨j.val + o, hj⟩ : Fin 12) k) :=
  extractStridedSlice_apply ![o, 0] W h (ix2 j k) (ix2 (⟨j.val + o, hj⟩ : Fin 12) k) fun a => by
    match a with
    | ⟨0, _⟩ => show j.val + o = o + j.val; omega
    | ⟨1, _⟩ => show k.val = 0 + k.val; omega

/-- A one-row matrix laid down the 1024 rows reads, at (d, k), its entry k. -/
theorem rowDown_apply (v : (⟨2, ![1, 20]⟩ : Shape).Idx → EReal)
    (h : (⟨2, ![1, 20]⟩ : Shape).BroadcastsInDim ⟨2, ![1024, 20]⟩ ![0, 1]) (d : Fin 1024) (k : Fin 20) :
    broadcastInDim ⟨2, ![1024, 20]⟩ ![0, 1] h v (ix2 d k) = v (ix2 (⟨0, by decide⟩ : Fin 1) k) :=
  broadcastInDim_apply ![0, 1] h v (ix2 d k) (ix2 (⟨0, by decide⟩ : Fin 1) k) fun a => by
    match a with
    | ⟨0, _⟩ => show (0 : Nat) = if (1 : Nat) = 1 then 0 else _; rw [if_pos rfl]
    | ⟨1, _⟩ => show k.val = if (20 : Nat) = 1 then 0 else k.val; rw [if_neg (by decide)]

/-- A one-column matrix laid across the 20 columns reads, at (d, k), its entry d. -/
theorem colAcross_apply (v : (⟨2, ![1024, 1]⟩ : Shape).Idx → EReal)
    (h : (⟨2, ![1024, 1]⟩ : Shape).BroadcastsInDim ⟨2, ![1024, 20]⟩ ![0, 1]) (d : Fin 1024) (k : Fin 20) :
    broadcastInDim ⟨2, ![1024, 20]⟩ ![0, 1] h v (ix2 d k) = v (ix2 d (⟨0, by decide⟩ : Fin 1)) :=
  broadcastInDim_apply ![0, 1] h v (ix2 d k) (ix2 d (⟨0, by decide⟩ : Fin 1)) fun a => by
    match a with
    | ⟨0, _⟩ => show d.val = if (1024 : Nat) = 1 then 0 else d.val; rw [if_neg (by decide)]
    | ⟨1, _⟩ => show (0 : Nat) = if (1 : Nat) = 1 then 0 else _; rw [if_pos rfl]

/-- A vector recast as a one-row matrix reads, at (0, q), the vector at q. -/
theorem oneRow_apply {C : Nat} (v : (⟨1, ![C]⟩ : Shape).Idx → EReal) (h : (⟨1, ![C]⟩ : Shape).ShapeCasts ⟨2, ![1, C]⟩)
    (i : (⟨2, ![1, C]⟩ : Shape).Idx) : shapeCast ⟨2, ![1, C]⟩ v h i = v (ix1 (i 1)) := by
  obtain ⟨z, q, rfl⟩ : ∃ (z : Fin 1) (q : Fin C), i = ix2 z q := ⟨i 0, i 1, eq_ix2 i⟩
  refine shapeCast_apply v h (ix2 z q) (ix1 q) ?_
  rw [Shape.rowMajor_val_one, Shape.rowMajor_val_two]
  show q.val = z.val * C + q.val
  have hz : z.val = 0 := by have := z.isLt; omega
  rw [hz, Nat.zero_mul, Nat.zero_add]

/-! ## The two tables' terms, over any arguments, and their values at a point -/

/-- The host's term for the slope table: F · W1[1:11, :] + (row 0 of W1, laid down the rows). -/
def slopeTerm (Fm : FVec Ideal S1024x10 .f32) (W1 : FVec Ideal S12x20 .f32) : FVec Ideal S1024x20 .f32 :=
  addf (Host.dotGeneral (F := Ideal) dot_S1024x10_S10x20_S1024x20_1_0_0_1_n_n none Fm
          (extractStridedSlice S10x20 ![1, 0] W1 slices_S12x20_S10x20_1_0))
       (broadcastInDim S1024x20 ![0, 1] bcast_S1x20_S1024x20_0_1 (extractStridedSlice S1x20 ![0, 0] W1 slices_S12x20_S1x20_0_0))

/-- The host's term for the offset table: β (laid across the columns) · (row 11 of W1, laid down the rows) + (b1, laid down the rows). -/
def offsetTerm (bp : FVec Ideal S1024x1 .f32) (W1 : FVec Ideal S12x20 .f32) (b1 : FVec Ideal S20 .f32) : FVec Ideal S1024x20 .f32 :=
  addf (mulf (broadcastInDim S1024x20 ![0, 1] bcast_S1024x1_S1024x20_0_1 bp)
          (broadcastInDim S1024x20 ![0, 1] bcast_S1x20_S1024x20_0_1 (extractStridedSlice S1x20 ![11, 0] W1 slices_S12x20_S1x20_11_0)))
       (broadcastInDim S1024x20 ![0, 1] bcast_S1x20_S1024x20_0_1 (broadcastInDim S1x20 ![1] bcast_S20_S1x20_1 b1))

/-- At (d, k) the slope term is Σ_j F(d,j) · W1(1+j,k) + W1(0,k). -/
theorem slopeTerm_apply (Fm : FVec Ideal S1024x10 .f32) (W1 : FVec Ideal S12x20 .f32) (d : Fin 1024) (k : Fin 20) :
    slopeTerm Fm W1 (ix2 d k) = Cert.Spec.tabA Fm W1 d k := by
  unfold slopeTerm Cert.Spec.tabA
  refine (addf_apply _ _ _).trans (congrArg₂ (fun s t : EReal => s + t) ?_ ?_)
  · -- the product: the contraction runs over the ten rows 1..10 of the weight matrix
    refine (Cert.LibPlainDot.dotGeneral_plain (M := 1024) (K := 10) (N := 20) none .single Fm
      (extractStridedSlice S10x20 ![1, 0] W1 slices_S12x20_S10x20_1_0) (ix2 d k)).trans ?_
    refine Finset.sum_congr rfl fun j _ => congrArg (fun t : EReal => (Fm (ix2 d j) : EReal) * t) ?_
    exact sliceRows_apply 1 W1 slices_S12x20_S10x20_1_0 j k (by have := j.isLt; omega)
  · -- the added row: row 0 of the weight matrix, the same for every d
    refine (rowDown_apply _ bcast_S1x20_S1024x20_0_1 d k).trans ?_
    exact sliceRows_apply 0 W1 slices_S12x20_S1x20_0_0 (⟨0, by decide⟩ : Fin 1) k (by decide)

/-- At (d, k) the offset term is β(d) · W1(11,k) + b1(k). -/
theorem offsetTerm_apply (bp : FVec Ideal S1024x1 .f32) (W1 : FVec Ideal S12x20 .f32) (b1 : FVec Ideal S20 .f32) (d : Fin 1024) (k : Fin 20) :
    offsetTerm bp W1 b1 (ix2 d k) = Cert.Spec.tabC bp W1 b1 d k := by
  unfold offsetTerm Cert.Spec.tabC
  refine (addf_apply _ _ _).trans (congrArg₂ (fun s t : EReal => s + t)
    ((mulf_apply _ _ _).trans (congrArg₂ (fun s t : EReal => s * t) ?_ ?_)) ?_)
  · exact colAcross_apply bp bcast_S1024x1_S1024x20_0_1 d k
  · refine (rowDown_apply _ bcast_S1x20_S1024x20_0_1 d k).trans ?_
    exact sliceRows_apply 11 W1 slices_S12x20_S1x20_11_0 (⟨0, by decide⟩ : Fin 1) k (by decide)
  · exact Cert.LibPlainDot.rowBroadcastInDim_apply b1 bcast_S20_S1x20_1 bcast_S1x20_S1024x20_0_1 d k

/-! ## The arrays as the host operations' terms of the arguments -/

theorem e4 (c : Dev nD) : (V m c main_v4 : S1024x20.Idx → EReal)
    = slopeTerm (m ((c : Thread nD τ).loc main_arg2)) (m ((c : Thread nD τ).loc main_arg4)) := by
  dsimp only [Gen.V, Gen.hostOps0]; after_results; rfl

theorem e11 (c : Dev nD) : (V m c main_v11 : S1024x20.Idx → EReal)
    = offsetTerm (m ((c : Thread nD τ).loc main_arg3)) (m ((c : Thread nD τ).loc main_arg4)) (m ((c : Thread nD τ).loc main_arg5)) := by
  dsimp only [Gen.V, Gen.hostOps0]; after_results; rfl

theorem e12 (c : Dev nD) : (V m c main_v12 : S1x500.Idx → EReal)
    = shapeCast S1x500 (m ((c : Thread nD τ).loc main_arg7)) shapeCasts_S500_S1x500 := by
  dsimp only [Gen.V, Gen.hostOps0]; after_results; rfl

theorem e13 (c : Dev nD) : (V m c main_v13 : S1x200.Idx → EReal)
    = shapeCast S1x200 (m ((c : Thread nD τ).loc main_arg9)) shapeCasts_S200_S1x200 := by
  dsimp only [Gen.V, Gen.hostOps0]; after_results; rfl

theorem e14 (c : Dev nD) : (V m c main_v14 : S1x20.Idx → EReal)
    = shapeCast S1x20 (m ((c : Thread nD τ).loc main_arg11)) shapeCasts_S20_S1x20 := by
  dsimp only [Gen.V, Gen.hostOps0]; after_results; rfl

/-! ## The five arrays -/

/-- The slope table as the region finds it. -/
theorem V_v4 (c : Dev nD) : (V m c main_v4 : S1024x20.Idx → EReal)
    = fun i => Cert.Spec.tabA (m ((c : Thread nD τ).loc main_arg2)) (m ((c : Thread nD τ).loc main_arg4)) (i 0) (i 1) := by
  refine (e4 m c).trans (funext fun i => ?_)
  obtain ⟨d, k, rfl⟩ : ∃ (d : Fin 1024) (k : Fin 20), i = ix2 d k := ⟨i 0, i 1, eq_ix2 i⟩
  exact slopeTerm_apply _ _ d k

/-- The offset table as the region finds it. -/
theorem V_v11 (c : Dev nD) : (V m c main_v11 : S1024x20.Idx → EReal)
    = fun i => Cert.Spec.tabC (m ((c : Thread nD τ).loc main_arg3)) (m ((c : Thread nD τ).loc main_arg4)) (m ((c : Thread nD τ).loc main_arg5)) (i 0) (i 1) := by
  refine (e11 m c).trans (funext fun i => ?_)
  obtain ⟨d, k, rfl⟩ : ∃ (d : Fin 1024) (k : Fin 20), i = ix2 d k := ⟨i 0, i 1, eq_ix2 i⟩
  exact offsetTerm_apply _ _ _ d k

/-- The second layer's bias as a one-row matrix. -/
theorem V_v12 (c : Dev nD) : (V m c main_v12 : S1x500.Idx → EReal) = fun i => m ((c : Thread nD τ).loc main_arg7) (ix1 (i 1)) :=
  (e12 m c).trans (funext fun i => oneRow_apply _ shapeCasts_S500_S1x500 i)

/-- The third layer's bias as a one-row matrix. -/
theorem V_v13 (c : Dev nD) : (V m c main_v13 : S1x200.Idx → EReal) = fun i => m ((c : Thread nD τ).loc main_arg9) (ix1 (i 1)) :=
  (e13 m c).trans (funext fun i => oneRow_apply _ shapeCasts_S200_S1x200 i)

/-- The last layer's bias as a one-row matrix. -/
theorem V_v14 (c : Dev nD) : (V m c main_v14 : S1x20.Idx → EReal) = fun i => m ((c : Thread nD τ).loc main_arg11) (ix1 (i 1)) :=
  (e14 m c).trans (funext fun i => oneRow_apply _ shapeCasts_S20_S1x20 i)

end Cert.KernelIdeal.Tables

end
-- ==== Proof.KernelBlocks.lean ====
/-
  The input windows' blocks at a grid point, read off the arrays the region finds.

  The two streamed inputs are cut into four blocks of 1024 rows: block t holds rows 1024·t … 1024·t + 1023.  The other
  eight inputs are resident: their one block is the whole array at every point.
-/
import proofs.«155877_j15333033247098_1_alg».proof.Proof.Gen.KernelIdeal.Frame
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The grid has four points. -/
theorem t_lt (t : Fin cfg0.N) : t.val < 4 := lt_of_lt_of_eq t.isLt N_0

/-- The streamed windows' block index at point t is (t, 0): decided over the four points. -/
theorem idx_stream : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The resident windows' block index is (0, 0) at every point: decided over the four points. -/
theorem idx_resident : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Block t of the first streamed input, at (p, d), is the argument at row 1024·t + p:
    a block's coordinate is index × size + the coordinate inside the block. -/
theorem iblk0_apply (c : Dev nD) (t : Fin cfg0.N) (p d : Fin 1024) (hb : t.val * 1024 + p.val < 4096) :
    (iblk m c 0 t : Vec Ideal S1024x1024 .f32) (ix2 p d)
      = (m ((c : Thread nD τ).loc main_arg0) : S4096x1024.Idx → EReal) (ix2 (⟨t.val * 1024 + p.val, hb⟩ : Fin 4096) d) := by
  obtain ⟨e0, e1, _, _⟩ := idx_stream t
  unfold iblk
  rw [View.read_apply]
  show V m c main_arg0 _ = _
  refine (congrFun (V_main_arg0 m c) _).trans ?_
  congr 1
  funext a
  apply Fin.ext
  match a with
  | ⟨0, _⟩ => show win0_0.index t 0 * 1024 + 1 * p.val = t.val * 1024 + p.val; rw [e0]; omega
  | ⟨1, _⟩ => show win0_0.index t 1 * 1024 + 1 * d.val = d.val; rw [e1]; omega

/-- The same for the second streamed input. -/
theorem iblk1_apply (c : Dev nD) (t : Fin cfg0.N) (p d : Fin 1024) (hb : t.val * 1024 + p.val < 4096) :
    (iblk m c 1 t : Vec Ideal S1024x1024 .f32) (ix2 p d)
      = (m ((c : Thread nD τ).loc main_arg1) : S4096x1024.Idx → EReal) (ix2 (⟨t.val * 1024 + p.val, hb⟩ : Fin 4096) d) := by
  obtain ⟨_, _, e0, e1⟩ := idx_stream t
  unfold iblk
  rw [View.read_apply]
  show V m c main_arg1 _ = _
  refine (congrFun (V_main_arg1 m c) _).trans ?_
  congr 1
  funext a
  apply Fin.ext
  match a with
  | ⟨0, _⟩ => show win0_1.index t 0 * 1024 + 1 * p.val = t.val * 1024 + p.val; rw [e0]; omega
  | ⟨1, _⟩ => show win0_1.index t 1 * 1024 + 1 * d.val = d.val; rw [e1]; omega

/-- The resident windows' one block is the whole array as the region finds it: with block index (0, 0)
    the coordinate 0 × size + y is y on each axis. -/
theorem iblk2_eq (c : Dev nD) (t : Fin cfg0.N) : (iblk m c 2 t : Vec Ideal S1024x20 .f32) = V m c main_v4 := by
  obtain ⟨⟨e0, e1⟩, _⟩ := idx_resident t
  funext y
  unfold iblk
  rw [View.read_apply]
  show V m c main_v4 _ = V m c main_v4 y
  refine congrArg (V m c main_v4) (funext fun a => Fin.ext ?_)
  match a with
  | ⟨0, _⟩ => show win0_2.index t 0 * 1024 + 1 * (y 0).val = (y 0).val; rw [e0]; omega
  | ⟨1, _⟩ => show win0_2.index t 1 * 20 + 1 * (y 1).val = (y 1).val; rw [e1]; omega

theorem iblk3_eq (c : Dev nD) (t : Fin cfg0.N) : (iblk m c 3 t : Vec Ideal S1024x20 .f32) = V m c main_v11 := by
  obtain ⟨_, ⟨e0, e1⟩, _⟩ := idx_resident t
  funext y
  unfold iblk
  rw [View.read_apply]
  show V m c main_v11 _ = V m c main_v11 y
  refine congrArg (V m c main_v11) (funext fun a => Fin.ext ?_)
  match a with
  | ⟨0, _⟩ => show win0_3.index t 0 * 1024 + 1 * (y 0).val = (y 0).val; rw [e0]; omega
  | ⟨1, _⟩ => show win0_3.index t 1 * 20 + 1 * (y 1).val = (y 1).val; rw [e1]; omega

theorem iblk4_eq (c : Dev nD) (t : Fin cfg0.N) : (iblk m c 4 t : Vec Ideal S20x500 .f32) = m ((c : Thread nD τ).loc main_arg6) := by
  obtain ⟨_, _, ⟨e0, e1⟩, _⟩ := idx_resident t
  refine Eq.trans ?_ (V_main_arg6 m c)
  funext y
  unfold iblk
  rw [View.read_apply]
  show V m c main_arg6 _ = V m c main_arg6 y
  refine congrArg (V m c main_arg6) (funext fun a => Fin.ext ?_)
  match a with
  | ⟨0, _⟩ => show win0_4.index t 0 * 20 + 1 * (y 0).val = (y 0).val; rw [e0]; omega
  | ⟨1, _⟩ => show win0_4.index t 1 * 500 + 1 * (y 1).val = (y 1).val; rw [e1]; omega

theorem iblk5_eq (c : Dev nD) (t : Fin cfg0.N) : (iblk m c 5 t : Vec Ideal S1x500 .f32) = V m c main_v12 := by
  obtain ⟨_, _, _, ⟨e0, e1⟩, _⟩ := idx_resident t
  funext y
  unfold iblk
  rw [View.read_apply]
  show V m c main_v12 _ = V m c main_v12 y
  refine congrArg (V m c main_v12) (funext fun a => Fin.ext ?_)
  match a with
  | ⟨0, _⟩ => show win0_5.index t 0 * 1 + 1 * (y 0).val = (y 0).val; rw [e0]; omega
  | ⟨1, _⟩ => show win0_5.index t 1 * 500 + 1 * (y 1).val = (y 1).val; rw [e1]; omega

theorem iblk6_eq (c : Dev nD) (t : Fin cfg0.N) : (iblk m c 6 t : Vec Ideal S500x200 .f32) = m ((c : Thread nD τ).loc main_arg8) := by
  obtain ⟨_, _, _, _, ⟨e0, e1⟩, _⟩ := idx_resident t
  refine Eq.trans ?_ (V_main_arg8 m c)
  funext y
  unfold iblk
  rw [View.read_apply]
  show V m c main_arg8 _ = V m c main_arg8 y
  refine congrArg (V m c main_arg8) (funext fun a => Fin.ext ?_)
  match a with
  | ⟨0, _⟩ => show win0_6.index t 0 * 500 + 1 * (y 0).val = (y 0).val; rw [e0]; omega
  | ⟨1, _⟩ => show win0_6.index t 1 * 200 + 1 * (y 1).val = (y 1).val; rw [e1]; omega

theorem iblk7_eq (c : Dev nD) (t : Fin cfg0.N) : (iblk m c 7 t : Vec Ideal S1x200 .f32) = V m c main_v13 := by
  obtain ⟨_, _, _, _, _, ⟨e0, e1⟩, _⟩ := idx_resident t
  funext y
  unfold iblk
  rw [View.read_apply]
  show V m c main_v13 _ = V m c main_v13 y
  refine congrArg (V m c main_v13) (funext fun a => Fin.ext ?_)
  match a with
  | ⟨0, _⟩ => show win0_7.index t 0 * 1 + 1 * (y 0).val = (y 0).val; rw [e0]; omega
  | ⟨1, _⟩ => show win0_7.index t 1 * 200 + 1 * (y 1).val = (y 1).val; rw [e1]; omega

theorem iblk8_eq (c : Dev nD) (t : Fin cfg0.N) : (iblk m c 8 t : Vec Ideal S200x20 .f32) = m ((c : Thread nD τ).loc main_arg10) := by
  obtain ⟨_, _, _, _, _, _, ⟨e0, e1⟩, _⟩ := idx_resident t
  refine Eq.trans ?_ (V_main_arg10 m c)
  funext y
  unfold iblk
  rw [View.read_apply]
  show V m c main_arg10 _ = V m c main_arg10 y
  refine congrArg (V m c main_arg10) (funext fun a => Fin.ext ?_)
  match a with
  | ⟨0, _⟩ => show win0_8.index t 0 * 200 + 1 * (y 0).val = (y 0).val; rw [e0]; omega
  | ⟨1, _⟩ => show win0_8.index t 1 * 20 + 1 * (y 1).val = (y 1).val; rw [e1]; omega

theorem iblk9_eq (c : Dev nD) (t : Fin cfg0.N) : (iblk m c 9 t : Vec Ideal S1x20 .f32) = V m c main_v14 := by
  obtain ⟨_, _, _, _, _, _, _, e0, e1⟩ := idx_resident t
  funext y
  unfold iblk
  rw [View.read_apply]
  show V m c main_v14 _ = V m c main_v14 y
  refine congrArg (V m c main_v14) (funext fun a => Fin.ext ?_)
  match a with
  | ⟨0, _⟩ => show win0_9.index t 0 * 1 + 1 * (y 0).val = (y 0).val; rw [e0]; omega
  | ⟨1, _⟩ => show win0_9.index t 1 * 20 + 1 * (y 1).val = (y 1).val; rw [e1]; omega

end Cert.KernelIdeal.Blocks

end
-- ==== Proof.KernelCover.lean ====
/-
  The two output windows: block t is rows 1024·t … 1024·t + 1023 of the 4096 × 10 result, every point writes its block
  back, and the four blocks cover the array.

  Both windows have the index map t ↦ (t, 0) with blocks of 1024 × 10, so index (p, q) of block t sits at row
  1024·t + p, column q of the array; and row r of the array lies in the block of point r / 1024, which is below 4.
-/
import proofs.«155877_j15333033247098_1_alg».proof.Proof.Gen.KernelIdeal.Frame
import Idealize.ShloMosaic.Lib.Pipeline.Value
import Idealize.ShloMosaic.Lib.ValueIdx

noncomputable section

namespace Cert.KernelIdeal.Cover

open Cert.KernelIdeal Cert.KernelIdeal.Gen Idealize.ShloMosaic Idealize.ShloMosaic.TcCoe Idealize.SL.Sem Idealize.ShloMosaic.ValueIdx

/-! ## The first result's window -/

/-- The index map, decided over the four points: point t's block has block row t and block column 0. -/
theorem blockIndex10 : ∀ t : Fin cfg0.N, win0_10.index t (0 : Fin 2) = t.val ∧ win0_10.index t (1 : Fin 2) = 0 :=
  (by decide +kernel : ∀ t : Fin grid0.N, _)

/-- Every block row below 4 is some point's. -/
theorem blockOnto10 : ∀ q0 : Fin 4, ∃ t : Fin cfg0.N, win0_10.index t = ![q0.val, 0] :=
  (by decide +kernel : ∀ q0 : Fin 4, ∃ t : Fin grid0.N, win0_10.index t = ![q0.val, 0])

/-- An index of the array is in point t's block iff each coordinate is in the block's range on its axis. -/
theorem memBlock10 (t : Fin cfg0.N) (i : S4096x10.Idx) :
    i ∈ ((cfg0.win 10).blk t).view.set ↔ ∀ a : Fin 2, win0_10.index t a * S1024x10.size a ≤ (i a).val ∧ (i a).val < win0_10.index t a * S1024x10.size a + S1024x10.size a := by
  show i ∈ ((View.whole main_v15_0).slice (win0_10.rect t)).set ↔ _
  rw [View.set_slice_whole, Rect.mem_set_unit]
  exact Iff.rfl

/-! ## The second result's window -/

/-- The index map, decided over the four points: point t's block has block row t and block column 0. -/
theorem blockIndex11 : ∀ t : Fin cfg0.N, win0_11.index t (0 : Fin 2) = t.val ∧ win0_11.index t (1 : Fin 2) = 0 :=
  (by decide +kernel : ∀ t : Fin grid0.N, _)

/-- Every block row below 4 is some point's. -/
theorem blockOnto11 : ∀ q0 : Fin 4, ∃ t : Fin cfg0.N, win0_11.index t = ![q0.val, 0] :=
  (by decide +kernel : ∀ q0 : Fin 4, ∃ t : Fin grid0.N, win0_11.index t = ![q0.val, 0])

/-- An index of the array is in point t's block iff each coordinate is in the block's range on its axis. -/
theorem memBlock11 (t : Fin cfg0.N) (i : S4096x10.Idx) :
    i ∈ ((cfg0.win 11).blk t).view.set ↔ ∀ a : Fin 2, win0_11.index t a * S1024x10.size a ≤ (i a).val ∧ (i a).val < win0_11.index t a * S1024x10.size a + S1024x10.size a := by
  show i ∈ ((View.whole main_v15_1).slice (win0_11.rect t)).set ↔ _
  rw [View.set_slice_whole, Rect.mem_set_unit]
  exact Iff.rfl

/-- Where index (p, q) of point t's block of the first result lies in the array. -/
theorem emb10 (t : Fin cfg0.N) (p : Fin 1024) (q : Fin 10) (hb : t.val * 1024 + p.val < 4096) :
    (((cfg0.win 10).blk t).view.emb (ix2 p q) : S4096x10.Idx) = ix2 (⟨t.val * 1024 + p.val, hb⟩ : Fin 4096) q := by
  obtain ⟨e0, e1⟩ := blockIndex10 t
  funext a; apply Fin.ext
  match a with
  | ⟨0, _⟩ => show win0_10.index t (0 : Fin 2) * 1024 + 1 * p.val = t.val * 1024 + p.val; omega
  | ⟨1, _⟩ => show win0_10.index t (1 : Fin 2) * 10 + 1 * q.val = q.val; omega

/-- The same for the second result. -/
theorem emb11 (t : Fin cfg0.N) (p : Fin 1024) (q : Fin 10) (hb : t.val * 1024 + p.val < 4096) :
    (((cfg0.win 11).blk t).view.emb (ix2 p q) : S4096x10.Idx) = ix2 (⟨t.val * 1024 + p.val, hb⟩ : Fin 4096) q := by
  obtain ⟨e0, e1⟩ := blockIndex11 t
  funext a; apply Fin.ext
  match a with
  | ⟨0, _⟩ => show win0_11.index t (0 : Fin 2) * 1024 + 1 * p.val = t.val * 1024 + p.val; omega
  | ⟨1, _⟩ => show win0_11.index t (1 : Fin 2) * 10 + 1 * q.val = q.val; omega

/-- Every index of the first result lies in the block of a point that writes back: row r is in the block of point r / 1024. -/
theorem cover10 (i : S4096x10.Idx) : ∃ t : Fin cfg0.N, (cfg0.win 10).flush t = true ∧ i ∈ ((cfg0.win 10).blk t).view.set := by
  have hi0 : (i 0).val < 4096 := (i 0).isLt
  have hi1 : (i 1).val < 10 := (i 1).isLt
  obtain ⟨t, ht⟩ := blockOnto10 ⟨(i 0).val / 1024, by omega⟩
  have q0 : win0_10.index t (0 : Fin 2) = (i 0).val / 1024 := congrFun ht 0
  have q1 : win0_10.index t (1 : Fin 2) = 0 := congrFun ht 1
  refine ⟨t, flush0_10 t, ?_⟩
  rw [memBlock10]
  intro a
  match a with
  | ⟨0, _⟩ => show win0_10.index t (0 : Fin 2) * 1024 ≤ (i 0).val ∧ (i 0).val < win0_10.index t (0 : Fin 2) * 1024 + 1024; omega
  | ⟨1, _⟩ => show win0_10.index t (1 : Fin 2) * 10 ≤ (i 1).val ∧ (i 1).val < win0_10.index t (1 : Fin 2) * 10 + 10; omega

/-- The same for the second result. -/
theorem cover11 (i : S4096x10.Idx) : ∃ t : Fin cfg0.N, (cfg0.win 11).flush t = true ∧ i ∈ ((cfg0.win 11).blk t).view.set := by
  have hi0 : (i 0).val < 4096 := (i 0).isLt
  have hi1 : (i 1).val < 10 := (i 1).isLt
  obtain ⟨t, ht⟩ := blockOnto11 ⟨(i 0).val / 1024, by omega⟩
  have q0 : win0_11.index t (0 : Fin 2) = (i 0).val / 1024 := congrFun ht 0
  have q1 : win0_11.index t (1 : Fin 2) = 0 := congrFun ht 1
  refine ⟨t, flush0_11 t, ?_⟩
  rw [memBlock11]
  intro a
  match a with
  | ⟨0, _⟩ => show win0_11.index t (0 : Fin 2) * 1024 ≤ (i 0).val ∧ (i 0).val < win0_11.index t (0 : Fin 2) * 1024 + 1024; omega
  | ⟨1, _⟩ => show win0_11.index t (1 : Fin 2) * 10 ≤ (i 1).val ∧ (i 1).val < win0_11.index t (1 : Fin 2) * 10 + 10; omega

end Cert.KernelIdeal.Cover

end
-- ==== Proof.KernelArray.lean ====
/-
  The kernel's two result arrays after the run are the specification's folded form.

  At grid point t the body leaves in each output buffer, at (p, q), the three dense layers applied to the pooled row p of
  the point's blocks (columns q for the first result, q + 10 for the second).  Row p of block t is row 1024·t + p of the
  streamed inputs, the resident blocks are the whole tables and weights, so what point t writes back is block t of ONE
  function of the arguments; the four blocks cover the 4096 rows.
-/
import proofs.«155877_j15333033247098_1_alg».proof.Proof.Gen.KernelIdeal.Value
import proofs.«155877_j15333033247098_1_alg».proof.Proof.KernelRow
import proofs.«155877_j15333033247098_1_alg».proof.Proof.KernelTables
import proofs.«155877_j15333033247098_1_alg».proof.Proof.KernelBlocks
import proofs.«155877_j15333033247098_1_alg».proof.Proof.KernelCover

noncomputable section

open scoped BigOperators

namespace Cert.KernelIdeal.ArrayValue

open Cert.KernelIdeal Cert.KernelIdeal.Gen Cert.KernelIdeal.Value Cert.KernelIdeal.RowValue Cert.KernelIdeal.Blocks
  Cert.KernelIdeal.Tables Cert.KernelIdeal.Cover Idealize.ShloMosaic Idealize.ShloMosaic.TcCoe Idealize.SL.Sem
  Idealize.ShloMosaic.ValueIdx Cert.Spec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What the body leaves in the output buffers, over arbitrary blocks -/

/-- First output buffer at (p, q): column q of the dense layers on pooled row p. -/
theorem out10_apply (x0 x1 : FVec Ideal S1024x1024 .f32) (x2 x3 : FVec Ideal S1024x20 .f32) (x4 : FVec Ideal S20x500 .f32) (x5 : FVec Ideal S1x500 .f32)
    (x6 : FVec Ideal S500x200 .f32) (x7 : FVec Ideal S1x200 .f32) (x8 : FVec Ideal S200x20 .f32) (x9 : FVec Ideal S1x20 .f32) (p : Fin 1024) (q : Fin 10) :
    out0_10 (F := Ideal) x0 x1 x2 x3 x4 x5 x6 x7 x8 x9 (ix2 p q)
      = mlp (fun k => relu (preBlk x0 x1 x2 x3 p k)) x4 (rowOf x5) x6 (rowOf x7) x8 (rowOf x9) (⟨q.val, by omega⟩ : Fin 20) := by
  unfold out0_10
  simp only [View.ld_unit_zero (S := S1024x1024) hz, View.ld_unit_zero (S := S1024x20) hz, View.ld_unit_zero (S := S20x500) hz,
    View.ld_unit_zero (S := S1x500) hz, View.ld_unit_zero (S := S500x200) hz, View.ld_unit_zero (S := S1x200) hz,
    View.ld_unit_zero (S := S200x20) hz, View.ld_unit_zero (S := S1x20) hz]
  rw [canon10_eq]
  have e0 : ix10_0 (ix2 p q) = ix2 p (⟨q.val, by omega⟩ : Fin 20) :=
    funext fun a => Fin.ext (by match a with | ⟨0, _⟩ => rfl | ⟨1, _⟩ => rfl)
  have e1 : ix10_1 (ix2 p q) = ix2 (0 : Fin 1) (⟨q.val, by omega⟩ : Fin 20) :=
    funext fun a => Fin.ext (by match a with | ⟨0, _⟩ => rfl | ⟨1, _⟩ => rfl)
  show FloatOps.addf (k0_pay4 x0 x1 x2 x3 x4 x5 x6 x7 x8 (ix10_0 (ix2 p q))) (x9 (ix10_1 (ix2 p q))) = _
  rw [e0, e1, pay4_apply]
  rfl

/-- Second output buffer at (p, q): column q + 10. -/
theorem out11_apply (x0 x1 : FVec Ideal S1024x1024 .f32) (x2 x3 : FVec Ideal S1024x20 .f32) (x4 : FVec Ideal S20x500 .f32) (x5 : FVec Ideal S1x500 .f32)
    (x6 : FVec Ideal S500x200 .f32) (x7 : FVec Ideal S1x200 .f32) (x8 : FVec Ideal S200x20 .f32) (x9 : FVec Ideal S1x20 .f32) (p : Fin 1024) (q : Fin 10) :
    out0_11 (F := Ideal) x0 x1 x2 x3 x4 x5 x6 x7 x8 x9 (ix2 p q)
      = mlp (fun k => relu (preBlk x0 x1 x2 x3 p k)) x4 (rowOf x5) x6 (rowOf x7) x8 (rowOf x9) (⟨q.val + 10, by omega⟩ : Fin 20) := by
  unfold out0_11
  simp only [View.ld_unit_zero (S := S1024x1024) hz, View.ld_unit_zero (S := S1024x20) hz, View.ld_unit_zero (S := S20x500) hz,
    View.ld_unit_zero (S := S1x500) hz, View.ld_unit_zero (S := S500x200) hz, View.ld_unit_zero (S := S1x200) hz,
    View.ld_unit_zero (S := S200x20) hz, View.ld_unit_zero (S := S1x20) hz]
  rw [canon11_eq]
  have e0 : ix11_0 (ix2 p q) = ix2 p (⟨q.val + 10, by omega⟩ : Fin 20) :=
    funext fun a => Fin.ext (by match a with | ⟨0, _⟩ => rfl | ⟨1, _⟩ => rfl)
  have e1 : ix11_1 (ix2 p q) = ix2 (0 : Fin 1) (⟨q.val + 10, by omega⟩ : Fin 20) :=
    funext fun a => Fin.ext (by match a with | ⟨0, _⟩ => rfl | ⟨1, _⟩ => rfl)
  show FloatOps.addf (k0_pay4 x0 x1 x2 x3 x4 x5 x6 x7 x8 (ix11_0 (ix2 p q))) (x9 (ix11_1 (ix2 p q))) = _
  rw [e0, e1, pay4_apply]
  rfl

/-! ## The blocks at a point are rows of the arguments -/

/-- The last layer's output, row by row, in the folded form, as a function of the launch memory. -/
abbrev outK (c : Dev nD) : Fin 4096 → Fin 20 → EReal :=
  outOf (preK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- A bias recast as a one-row matrix gives the bias back as its row. -/
theorem rowOf_recast {N : Nat} (v : Row N) : rowOf (fun i : (⟨2, ![1, N]⟩ : Shape).Idx => v (ix1 (i 1))) = v :=
  funext fun i => congrArg v (eq_ix1 i).symm

/-- The dense layers on pooled row p of point t's blocks are row 1024·t + p of the folded form. -/
theorem blk_row (c : Dev nD) (t : Fin cfg0.N) (p : Fin 1024) (hb : t.val * 1024 + p.val < 4096) (n : Fin 20) :
    mlp (fun k => relu (preBlk (iblk m c 0 t) (iblk m c 1 t) (iblk m c 2 t) (iblk m c 3 t) p k)) (iblk m c 4 t) (rowOf (iblk m c 5 t))
        (iblk m c 6 t) (rowOf (iblk m c 7 t)) (iblk m c 8 t) (rowOf (iblk m c 9 t)) n
      = outK m c (⟨t.val * 1024 + p.val, hb⟩ : Fin 4096) n := by
  have e5 : rowOf (iblk m c 5 t) = (m ((c : Thread nD τ).loc main_arg7)) := by rw [iblk5_eq, V_v12]; exact rowOf_recast _
  have e7 : rowOf (iblk m c 7 t) = (m ((c : Thread nD τ).loc main_arg9)) := by rw [iblk7_eq, V_v13]; exact rowOf_recast _
  have e9 : rowOf (iblk m c 9 t) = (m ((c : Thread nD τ).loc main_arg11)) := by rw [iblk9_eq, V_v14]; exact rowOf_recast _
  rw [iblk4_eq, e5, iblk6_eq, e7, iblk8_eq, e9]
  refine congrArg (fun pre => mlp pre (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) n) (funext fun k => congrArg relu ?_)
  unfold preBlk preK
  rw [iblk2_eq, iblk3_eq, V_v4, V_v11]
  refine congrArg₂ (· + ·) (Finset.sum_congr rfl fun d _ => ?_) (Finset.sum_congr rfl fun d _ => ?_)
  · rw [iblk0_apply m c t p d hb, iblk1_apply m c t p d hb]
    rfl
  · rw [iblk1_apply m c t p d hb]
    rfl

/-! ## What each point writes back, and the arrays after the run -/

/-- Point t writes back block t of the first result. -/
theorem flushed10_eq (c : Dev nD) (t : Fin cfg0.N) :
    (dats m 0 c).flushed 10 t = ((cfg0.win 10).blk t).view.read (Elt Ideal) (lo (outK m c)) := by
  rw [flushed10]
  funext j
  obtain ⟨p, q, rfl⟩ : ∃ (p : Fin 1024) (q : Fin 10), j = ix2 p q := ⟨j 0, j 1, eq_ix2 (n0 := 1024) (n1 := 10) j⟩
  have hb : t.val * 1024 + p.val < 4096 := by have := t_lt t; omega
  rw [View.read_apply, emb10 t p q hb, lo_apply]
  refine (out10_apply (iblk m c 0 t) (iblk m c 1 t) (iblk m c 2 t) (iblk m c 3 t) (iblk m c 4 t) (iblk m c 5 t) (iblk m c 6 t) (iblk m c 7 t)
    (iblk m c 8 t) (iblk m c 9 t) p q).trans ?_
  exact blk_row m c t p hb _

/-- Point t writes back block t of the second result. -/
theorem flushed11_eq (c : Dev nD) (t : Fin cfg0.N) :
    (dats m 0 c).flushed 11 t = ((cfg0.win 11).blk t).view.read (Elt Ideal) (hi (outK m c)) := by
  rw [flushed11]
  funext j
  obtain ⟨p, q, rfl⟩ : ∃ (p : Fin 1024) (q : Fin 10), j = ix2 p q := ⟨j 0, j 1, eq_ix2 (n0 := 1024) (n1 := 10) j⟩
  have hb : t.val * 1024 + p.val < 4096 := by have := t_lt t; omega
  rw [View.read_apply, emb11 t p q hb, hi_apply]
  refine (out11_apply (iblk m c 0 t) (iblk m c 1 t) (iblk m c 2 t) (iblk m c 3 t) (iblk m c 4 t) (iblk m c 5 t) (iblk m c 6 t) (iblk m c 7 t)
    (iblk m c 8 t) (iblk m c 9 t) p q).trans ?_
  exact blk_row m c t p hb _

/-- The first result array after the run. -/
theorem final10 (c : Dev nD) : (dats m 0 c).arrAt 10 cfg0.N = lo (outK m c) :=
  (dats m 0 c).arrAt_eq_of_cover 10 (lo (outK m c)) (fun t _ => flushed10_eq m c t) cover10

/-- The second result array after the run. -/
theorem final11 (c : Dev nD) : (dats m 0 c).arrAt 11 cfg0.N = hi (outK m c) :=
  (dats m 0 c).arrAt_eq_of_cover 11 (hi (outK m c)) (fun t _ => flushed11_eq m c t) cover11

end Cert.KernelIdeal.ArrayValue

end
-- ==== Proof.RefRead.lean ====
/-
  The reference program's two results, read index by index, are the feature form of the specification.
-/
import proofs.«155877_j15333033247098_1_alg».proof.Proof.Gen.ReferenceIdeal.Read
import proofs.«155877_j15333033247098_1_alg».proof.Proof.Spec

noncomputable section

open scoped BigOperators

namespace Cert.ReferenceIdeal.RefValue

open Cert.ReferenceIdeal Cert.ReferenceIdeal.Gen Idealize.ShloMosaic Idealize.ShloMosaic.ValueIdx

open Cert.ReferenceIdeal.Read

/-- The twelve-column feature array (the three pieces joined along the last axis) at a point: column 0 is x, columns
    1..10 are x times the slope table, column 11 is the offset table. -/
theorem v7_at (x0 : FVec Ideal S4096x1024 .f32) (x2 : FVec Ideal S1024x10 .f32) (x3 : FVec Ideal S1024x1 .f32)
    (b : Fin 4096) (d : Fin 1024) (f : Fin 12) :
    val_main_v7 (F := Ideal) x0 x2 x3 (ix3 b d f) = Cert.Spec.feat x0 x2 x3 b d f := by
  unfold val_main_v7 Cert.Spec.feat
  by_cases h0 : f.val < 1
  · rw [dif_pos h0]
    refine (concatenate_apply_piece _ _ _ (ix3 b d f) 0 (by simp) S4096x1024x1 (val_main_v0 (F := Ideal) x0) rfl rfl 0 rfl
      (ix3 b d (⟨0, by decide⟩ : Fin 1)) (fun a ha => ?_) ?_).trans ?_
    · match a with
      | ⟨0, _⟩ => rfl
      | ⟨1, _⟩ => rfl
      | ⟨2, _⟩ => exact absurd rfl ha
    · show 0 + 0 = f.val
      omega
    · rw [val_main_v0_apply]
      exact congrArg x0 (funext fun a => Fin.ext (by match a with | ⟨0, _⟩ => rfl | ⟨1, _⟩ => rfl))
  · rw [dif_neg h0]
    by_cases h1 : f.val < 11
    · rw [dif_pos h1]
      refine (concatenate_apply_piece _ _ _ (ix3 b d f) 1 (by simp) S4096x1024x10 (val_main_v4 (F := Ideal) x0 x2) rfl rfl 1 rfl
        (ix3 b d (⟨f.val - 1, by omega⟩ : Fin 10)) (fun a ha => ?_) ?_).trans ?_
      · match a with
        | ⟨0, _⟩ => rfl
        | ⟨1, _⟩ => rfl
        | ⟨2, _⟩ => exact absurd rfl ha
      · show 1 + (f.val - 1) = f.val
        omega
      · rw [val_main_v4_apply, val_main_v2_apply, val_main_v0_apply, val_main_v3_apply, val_main_v1_apply]
        refine congrArg₂ (· * ·) (congrArg x0 ?_) (congrArg x2 ?_)
        · exact funext fun a => Fin.ext (by match a with | ⟨0, _⟩ => rfl | ⟨1, _⟩ => rfl)
        · exact funext fun a => Fin.ext (by match a with | ⟨0, _⟩ => rfl | ⟨1, _⟩ => rfl)
    · rw [dif_neg h1]
      refine (concatenate_apply_piece _ _ _ (ix3 b d f) 2 (by simp) S4096x1024x1 (val_main_v6 (F := Ideal) x3) rfl rfl 11 rfl
        (ix3 b d (⟨0, by decide⟩ : Fin 1)) (fun a ha => ?_) ?_).trans ?_
      · match a with
        | ⟨0, _⟩ => rfl
        | ⟨1, _⟩ => rfl
        | ⟨2, _⟩ => exact absurd rfl ha
      · show 11 + 0 = f.val
        have := f.isLt
        omega
      · rw [val_main_v6_apply, val_main_v5_apply]
        exact congrArg x3 (funext fun a => Fin.ext (by match a with | ⟨0, _⟩ => rfl | ⟨1, _⟩ => rfl))

/-- The comparison constant of each max(·, 0) is the float zero of the specification. -/
theorem relu_eq (v : EReal) :
    FloatOps.maximumf (F := Ideal) (φ := .f32) v (FloatOps.ofBits .f32 0x00000000#32) = Cert.Spec.relu v := rfl

/-- One point's twelve features through the first dense layer, weighted by the point's 0/1 weight. -/
theorem v14_at (x0 x1 : FVec Ideal S4096x1024 .f32) (x2 : FVec Ideal S1024x10 .f32) (x3 : FVec Ideal S1024x1 .f32)
    (x4 : FVec Ideal S12x20 .f32) (x5 : FVec Ideal S20 .f32) (b : Fin 4096) (d : Fin 1024) (k : Fin 20) :
    val_main_v14 (F := Ideal) x0 x1 x2 x3 x4 x5 (ix3 b d k)
      = ((∑ f : Fin 12, Cert.Spec.feat x0 x2 x3 b d f * x4 (ix2 f k)) + x5 (ix1 k)) * x1 (ix2 b d) := by
  rw [val_main_v14_apply, val_main_v11_apply, val_main_v8_apply, val_main_v10_apply, val_main_v9_apply,
    val_main_v13_apply, val_main_v12_apply, Ideal.mulf_def, Ideal.addf_def]
  refine congrArg₂ (· * ·) (congrArg₂ (· + ·) (Finset.sum_congr rfl fun f _ => ?_) (congrArg x5 ?_)) (congrArg x1 ?_)
  · refine congrArg₂ (· * ·) ((congrArg (val_main_v7 (F := Ideal) x0 x2 x3) ?_).trans (v7_at x0 x2 x3 b d f)) (congrArg x4 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact funext fun a => Fin.ext (by match a with | ⟨0, _⟩ => rfl)
  · exact funext fun a => Fin.ext (by match a with | ⟨0, _⟩ => rfl | ⟨1, _⟩ => rfl)

/-- The pooled row: zero plus the sum over the 1024 points, then max(·, 0). -/
theorem v16_at (x0 x1 : FVec Ideal S4096x1024 .f32) (x2 : FVec Ideal S1024x10 .f32) (x3 : FVec Ideal S1024x1 .f32)
    (x4 : FVec Ideal S12x20 .f32) (x5 : FVec Ideal S20 .f32) (b : Fin 4096) (k : Fin 20) :
    val_main_v16 (F := Ideal) x0 x1 x2 x3 x4 x5 (ix2 b k)
      = Cert.Spec.relu (Cert.Spec.preR x0 x1 x2 x3 x4 x5 b k) := by
  rw [val_main_v16_apply, val_main_call0_v0_apply, val_main_call0_cst_apply, relu_eq, val_main_v15_apply, val_main_cst_apply]
  refine congrArg Cert.Spec.relu ?_
  unfold Cert.Spec.preR
  refine congrArg (Cert.Spec.zero32 + ·) (Finset.sum_congr rfl fun d _ => ?_)
  refine (congrArg (val_main_v14 (F := Ideal) x0 x1 x2 x3 x4 x5) ?_).trans (v14_at x0 x1 x2 x3 x4 x5 b d k)
  exact funext fun a => Fin.ext (by match a with | ⟨0, _⟩ => rfl | ⟨1, _⟩ => rfl | ⟨2, _⟩ => rfl)

/-- A dense layer read at a point: the contraction's left operand at (b,k), the weight at (k,n), the bias at n. -/
theorem dense_at {K N : Nat} (v : (⟨2, ![4096, K]⟩ : Shape).Idx → EReal) (W : Cert.Spec.Mat K N) (bias : Cert.Spec.Row N)
    (h : Fin K → EReal) (n : Fin N)
    (li : Fin K → (⟨2, ![4096, K]⟩ : Shape).Idx) (ri : Fin K → (⟨2, ![K, N]⟩ : Shape).Idx) (bi : (⟨1, ![N]⟩ : Shape).Idx)
    (hl : ∀ k, v (li k) = h k) (hr : ∀ k, ri k = ix2 k n) (hb : bi = ix1 n) :
    FloatOps.addf (F := Ideal) (φ := .f32) (∑ k : Fin K, v (li k) * W (ri k)) (bias bi) = Cert.Spec.dense h W bias n := by
  subst hb
  unfold Cert.Spec.dense
  rw [Ideal.addf_def]
  refine congrArg (· + bias (ix1 n)) (Finset.sum_congr rfl fun k _ => ?_)
  rw [hl k, hr k]

/-- The first hidden layer (20 → 500) with its max(·, 0), on row b. -/
theorem v21_at (x0 x1 : FVec Ideal S4096x1024 .f32) (x2 : FVec Ideal S1024x10 .f32) (x3 : FVec Ideal S1024x1 .f32)
    (x4 : FVec Ideal S12x20 .f32) (x5 : FVec Ideal S20 .f32)
    (x6 : FVec Ideal S20x500 .f32) (x7 : FVec Ideal S500 .f32) (b : Fin 4096) (j : Fin 500) :
    val_main_v21 (F := Ideal) x0 x1 x2 x3 x4 x5 x6 x7 (ix2 b j)
      = Cert.Spec.relu (Cert.Spec.dense (fun k => Cert.Spec.relu (Cert.Spec.preR x0 x1 x2 x3 x4 x5 b k)) x6 x7 j) := by
  rw [val_main_v21_apply, val_main_call1_v0_apply, val_main_call1_cst_apply, relu_eq, val_main_v20_apply, val_main_v17_apply,
    val_main_v19_apply, val_main_v18_apply]
  refine congrArg Cert.Spec.relu ?_
  refine dense_at (val_main_v16 (F := Ideal) x0 x1 x2 x3 x4 x5) x6 x7 _ j (lidx_main_v17 (ix2 b j)) (ridx_main_v17 (ix2 b j)) _
    (fun k => ?_) (fun k => ?_) ?_
  · refine (congrArg (val_main_v16 (F := Ideal) x0 x1 x2 x3 x4 x5) ?_).trans (v16_at x0 x1 x2 x3 x4 x5 b k)
    exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The second hidden layer (500 → 200) with its max(·, 0), on row b. -/
theorem v26_at (x0 x1 : FVec Ideal S4096x1024 .f32) (x2 : FVec Ideal S1024x10 .f32) (x3 : FVec Ideal S1024x1 .f32)
    (x4 : FVec Ideal S12x20 .f32) (x5 : FVec Ideal S20 .f32)
    (x6 : FVec Ideal S20x500 .f32) (x7 : FVec Ideal S500 .f32) (x8 : FVec Ideal S500x200 .f32) (x9 : FVec Ideal S200 .f32)
    (b : Fin 4096) (m : Fin 200) :
    val_main_v26 (F := Ideal) x0 x1 x2 x3 x4 x5 x6 x7 x8 x9 (ix2 b m)
      = Cert.Spec.relu (Cert.Spec.dense (fun j => Cert.Spec.relu (Cert.Spec.dense
          (fun k => Cert.Spec.relu (Cert.Spec.preR x0 x1 x2 x3 x4 x5 b k)) x6 x7 j)) x8 x9 m) := by
  rw [val_main_v26_apply, val_main_call2_v0_apply, val_main_call2_cst_apply, relu_eq, val_main_v25_apply, val_main_v22_apply,
    val_main_v24_apply, val_main_v23_apply]
  refine congrArg Cert.Spec.relu ?_
  refine dense_at (val_main_v21 (F := Ideal) x0 x1 x2 x3 x4 x5 x6 x7) x8 x9 _ m (lidx_main_v22 (ix2 b m)) (ridx_main_v22 (ix2 b m)) _
    (fun j => ?_) (fun j => ?_) ?_
  · refine (congrArg (val_main_v21 (F := Ideal) x0 x1 x2 x3 x4 x5 x6 x7) ?_).trans (v21_at x0 x1 x2 x3 x4 x5 x6 x7 b j)
    exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The output layer (200 → 20), on row b: the specification's output from the pooled feature form. -/
theorem v30_at (x0 x1 : FVec Ideal S4096x1024 .f32) (x2 : FVec Ideal S1024x10 .f32) (x3 : FVec Ideal S1024x1 .f32)
    (x4 : FVec Ideal S12x20 .f32) (x5 : FVec Ideal S20 .f32)
    (x6 : FVec Ideal S20x500 .f32) (x7 : FVec Ideal S500 .f32) (x8 : FVec Ideal S500x200 .f32) (x9 : FVec Ideal S200 .f32)
    (x10 : FVec Ideal S200x20 .f32) (x11 : FVec Ideal S20 .f32) (b : Fin 4096) (n : Fin 20) :
    val_main_v30 (F := Ideal) x0 x1 x2 x3 x4 x5 x6 x7 x8 x9 x10 x11 (ix2 b n)
      = Cert.Spec.outOf (Cert.Spec.preR x0 x1 x2 x3 x4 x5) x6 x7 x8 x9 x10 x11 b n := by
  rw [val_main_v30_apply, val_main_v27_apply, val_main_v29_apply, val_main_v28_apply]
  unfold Cert.Spec.outOf Cert.Spec.mlp
  refine dense_at (val_main_v26 (F := Ideal) x0 x1 x2 x3 x4 x5 x6 x7 x8 x9) x10 x11 _ n (lidx_main_v27 (ix2 b n))
    (ridx_main_v27 (ix2 b n)) _ (fun m => ?_) (fun m => ?_) ?_
  · refine (congrArg (val_main_v26 (F := Ideal) x0 x1 x2 x3 x4 x5 x6 x7 x8 x9) ?_).trans (v26_at x0 x1 x2 x3 x4 x5 x6 x7 x8 x9 b m)
    exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The first result is columns 0..9 of the dense layers applied to the pooled feature form. -/
theorem ref_lo (x0 x1 : FVec Ideal S4096x1024 .f32) (x2 : FVec Ideal S1024x10 .f32) (x3 : FVec Ideal S1024x1 .f32) (x4 : FVec Ideal S12x20 .f32)
    (x5 : FVec Ideal S20 .f32) (x6 : FVec Ideal S20x500 .f32) (x7 : FVec Ideal S500 .f32) (x8 : FVec Ideal S500x200 .f32)
    (x9 : FVec Ideal S200 .f32) (x10 : FVec Ideal S200x20 .f32) (x11 : FVec Ideal S20 .f32) :
    Cert.ReferenceIdeal.Read.val_main_v31 (F := Ideal) x0 x1 x2 x3 x4 x5 x6 x7 x8 x9 x10 x11
      = Cert.Spec.lo (Cert.Spec.outOf (Cert.Spec.preR x0 x1 x2 x3 x4 x5) x6 x7 x8 x9 x10 x11) := by
  funext i
  obtain ⟨b, q, rfl⟩ : ∃ (b : Fin 4096) (q : Fin 10), i = ix2 b q := ⟨i 0, i 1, eq_ix2 i⟩
  rw [val_main_v31_apply, Cert.Spec.lo_apply]
  refine (congrArg (val_main_v30 (F := Ideal) x0 x1 x2 x3 x4 x5 x6 x7 x8 x9 x10 x11) ?_).trans
    (v30_at x0 x1 x2 x3 x4 x5 x6 x7 x8 x9 x10 x11 b _)
  exact funext fun a => Fin.ext (by match a with | ⟨0, _⟩ => rfl | ⟨1, _⟩ => rfl)

/-- The second result is columns 10..19. -/
theorem ref_hi (x0 x1 : FVec Ideal S4096x1024 .f32) (x2 : FVec Ideal S1024x10 .f32) (x3 : FVec Ideal S1024x1 .f32) (x4 : FVec Ideal S12x20 .f32)
    (x5 : FVec Ideal S20 .f32) (x6 : FVec Ideal S20x500 .f32) (x7 : FVec Ideal S500 .f32) (x8 : FVec Ideal S500x200 .f32)
    (x9 : FVec Ideal S200 .f32) (x10 : FVec Ideal S200x20 .f32) (x11 : FVec Ideal S20 .f32) :
    Cert.ReferenceIdeal.Read.val_main_v32 (F := Ideal) x0 x1 x2 x3 x4 x5 x6 x7 x8 x9 x10 x11
      = Cert.Spec.hi (Cert.Spec.outOf (Cert.Spec.preR x0 x1 x2 x3 x4 x5) x6 x7 x8 x9 x10 x11) := by
  funext i
  obtain ⟨b, q, rfl⟩ : ∃ (b : Fin 4096) (q : Fin 10), i = ix2 b q := ⟨i 0, i 1, eq_ix2 i⟩
  rw [val_main_v32_apply, Cert.Spec.hi_apply]
  refine (congrArg (val_main_v30 (F := Ideal) x0 x1 x2 x3 x4 x5 x6 x7 x8 x9 x10 x11) ?_).trans
    (v30_at x0 x1 x2 x3 x4 x5 x6 x7 x8 x9 x10 x11 b _)
  exact funext fun a => Fin.ext (by
    match a with
    | ⟨0, _⟩ => rfl
    | ⟨1, _⟩ => exact Nat.add_comm 10 q.val)

end Cert.ReferenceIdeal.RefValue

end
-- ==== Proof.Algebra.lean ====
/-
  The two forms of the pooled pre-activation agree when every entry is a real number.
-/
import proofs.«155877_j15333033247098_1_alg».proof.Proof.Spec

noncomputable section

open scoped BigOperators

namespace Cert.Spec

open Idealize.ShloMosaic Idealize.ShloMosaic.ValueIdx

/-- The float zero is the zero of the extended reals. -/
theorem zero32_eq : zero32 = 0 := by simp [zero32, Ideal.ofBits, Ideal.ieee]

/-- The inclusion of the reals in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over twelve indices: the first term, the ten middle terms, the last term. -/
theorem sum12 {M : Type} [AddCommMonoid M] (g : Fin 12 → M) :
    ∑ f : Fin 12, g f
      = g ⟨0, by decide⟩ + (∑ j : Fin 10, g ⟨j.val + 1, by omega⟩) + g ⟨11, by decide⟩ := by
  rw [Fin.sum_univ_succ, Fin.sum_univ_castSucc, ← add_assoc]
  rfl

/-- The identity over the reals: distribute the weight w(d) and the slope x(d), then split the sum. -/
theorem real_fold (a w β : Fin 1024 → ℝ) (F : Fin 1024 → Fin 10 → ℝ) (W : Fin 12 → ℝ) (c : ℝ) :
    ∑ d : Fin 1024, (((a d * W ⟨0, by decide⟩ + ∑ j : Fin 10, (a d * F d j) * W ⟨j.val + 1, by omega⟩)
        + β d * W ⟨11, by decide⟩) + c) * w d
      = (∑ d : Fin 1024, (a d * w d) * ((∑ j : Fin 10, F d j * W ⟨j.val + 1, by omega⟩) + W ⟨0, by decide⟩))
        + ∑ d : Fin 1024, w d * (β d * W ⟨11, by decide⟩ + c) := by
  rw [← Finset.sum_add_distrib]
  refine Finset.sum_congr rfl (fun d _ => ?_)
  have hs : ∑ j : Fin 10, (a d * F d j) * W ⟨j.val + 1, by omega⟩
      = a d * ∑ j : Fin 10, F d j * W ⟨j.val + 1, by omega⟩ := by
    rw [Finset.mul_sum]
    exact Finset.sum_congr rfl (fun j _ => by ring)
  rw [hs]
  ring

/-- Feature 0 is x. -/
theorem feat_first (x : Mat 4096 1024) (Fm : Mat 1024 10) (bp : Mat 1024 1) (b : Fin 4096) (d : Fin 1024) :
    feat x Fm bp b d ⟨0, by decide⟩ = x (ix2 b d) := by
  unfold feat
  rw [dif_pos (by decide)]

/-- Feature 1 + j is x · F(d, j). -/
theorem feat_mid (x : Mat 4096 1024) (Fm : Mat 1024 10) (bp : Mat 1024 1) (b : Fin 4096) (d : Fin 1024) (j : Fin 10) :
    feat x Fm bp b d ⟨j.val + 1, by omega⟩ = x (ix2 b d) * Fm (ix2 d j) := by
  have h0 : ¬ (j.val + 1 < 1) := by omega
  have h1 : j.val + 1 < 11 := by omega
  unfold feat
  rw [dif_neg h0, dif_pos h1]
  rfl

/-- Feature 11 is β(d). -/
theorem feat_last (x : Mat 4096 1024) (Fm : Mat 1024 10) (bp : Mat 1024 1) (b : Fin 4096) (d : Fin 1024) :
    feat x Fm bp b d ⟨11, by decide⟩ = bp (ix2 d ⟨0, by decide⟩) := by
  unfold feat
  rw [dif_neg (by decide), dif_neg (by decide)]

/-- Feature form = folded form, entry by entry, for real-valued inputs. -/
theorem pre_eq (x mk : Mat 4096 1024) (Fm : Mat 1024 10) (bp : Mat 1024 1) (W1 : Mat 12 20) (b1 : Row 20)
    (hx : IsReal x) (hm : IsReal mk) (hF : IsReal Fm) (hb : IsReal bp) (hW : IsReal W1) (hb1 : IsReal b1)
    (b : Fin 4096) (k : Fin 20) :
    preR x mk Fm bp W1 b1 b k = preK x mk Fm bp W1 b1 b k := by
  choose xr hxr using hx
  choose mr hmr using hm
  choose Fr hFr using hF
  choose br hbr using hb
  choose Wr hWr using hW
  choose cr hcr using hb1
  unfold preR preK tabA tabC
  rw [zero32_eq, zero_add]
  simp only [sum12, feat_first, feat_mid, feat_last]
  simp only [hxr, hmr, hFr, hbr, hWr, hcr]
  simp only [← EReal.coe_mul, ← EReal.coe_add, ← coe_sum]
  exact congrArg Real.toEReal
    (real_fold (fun d => xr (ix2 b d)) (fun d => mr (ix2 b d)) (fun d => br (ix2 d ⟨0, by decide⟩))
      (fun d j => Fr (ix2 d j)) (fun f => Wr (ix2 f k)) (cr (ix1 k)))

end Cert.Spec

end
-- ==== Proof.Finite.lean ====
/-
  The precondition says every float input is finite; so every entry of the six arrays the pooling reads is a real number.

  The printed predicate is a conjunction, array by array, of  "the and-reduction over all entries of (|a| < +∞) is 1".
  A conjunction of 1-bit words is 1 only if both sides are; an and-reduction over every axis is 1 only if every entry is;
  and an extended real x with max(x, -x) < +∞ is neither +∞ nor -∞, hence a real number.
-/
import proofs.«155877_j15333033247098_1_alg».proof.Pre_finite_inputs
import proofs.«155877_j15333033247098_1_alg».proof.Proof.Spec
import Idealize.ShloMosaic.Lib.ReduceAll

noncomputable section

namespace Cert.FiniteArgs

open Idealize.ShloMosaic Idealize.ShloMosaic.ValueIdx Cert.Pre_finite_inputs

/-- The rank-0 shape has exactly one index. -/
instance : Subsingleton S_.Idx := ⟨fun a b => funext fun d => d.elim0⟩

/-- An extended real whose absolute value max(x, -x) is below +∞ is a real number: at +∞ the maximum is +∞, and at -∞
    its negation is +∞. -/
theorem real_of_abs_lt_top (x : EReal) (hx : max x (-x) < ⊤) : ∃ r : ℝ, x = (r : EReal) := by
  induction x using EReal.rec with
  | bot => simp at hx
  | coe r => exact ⟨r, rfl⟩
  | top => simp at hx

/-- One entry: if the comparison |x| < +∞ (the bit pattern 0x7F800000 is +∞) answers the word 1, then x is real. -/
theorem real_of_cmp (x : Ideal .f32)
    (hx : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h1 : Ideal.cmp .olt (max (x : EReal) (-(x : EReal))) (Ideal.ofBits .f32 0x7F800000#32) = 1#1 := hx
  rw [htop] at h1
  refine real_of_abs_lt_top x ?_
  by_contra hn
  unfold Ideal.cmp at h1
  simp [hn] at h1

/-- All entries: if the and-reduction of (|a| < +∞) over every axis is 1, then a is real-valued.  Generic in the shape. -/
theorem isReal_of_all {s : Shape} {axes : List (Fin s.rank)} (a : FVec Ideal s .f32)
    (bc : S_.BroadcastsInDim s (![] : Fin 0 → Fin s.rank)) (hr : s.ReducesTo axes S_) (hu : 0 < S_.numel)
    (init : IVec S_ 1) (j : S_.Idx)
    (e : Host.reduce IntOp.andi (cmpf .olt (Host.absf a) (broadcastInDim s ![] bc (constant S_ .f32 0x7F800000#32))) init hr hu j = 1#1) :
    Cert.Spec.IsReal a := by
  intro i
  exact real_of_cmp (a i) (Host.reduce_andi_all _ init hr hu j e i)

/-- From "the finiteness predicate is all ones" to "the first six arrays are real-valued".  The twelve conjuncts are nested
    to the left, the last array's outermost; the six outer ones are dropped, the six inner ones are read. -/
theorem real_of_fn [Cert.Pre_finite_inputs.Facts]
    (a0 a1 : FVec Ideal S4096x1024 .f32) (a2 : FVec Ideal S1024x10 .f32) (a3 : FVec Ideal S1024x1 .f32) (a4 : FVec Ideal S12x20 .f32)
    (a5 : FVec Ideal S20 .f32) (a6 : FVec Ideal S20x500 .f32) (a7 : FVec Ideal S500 .f32) (a8 : FVec Ideal S500x200 .f32)
    (a9 : FVec Ideal S200 .f32) (a10 : FVec Ideal S200x20 .f32) (a11 : FVec Ideal S20 .f32)
    (h : Cert.Pre_finite_inputs.fn (F := Ideal) a0 a1 a2 a3 a4 a5 a6 a7 a8 a9 a10 a11 = fun _ => 1#1) :
    Cert.Spec.IsReal a0 ∧ Cert.Spec.IsReal a1 ∧ Cert.Spec.IsReal a2 ∧ Cert.Spec.IsReal a3 ∧ Cert.Spec.IsReal a4 ∧ Cert.Spec.IsReal a5 := by
  have h0 := congrFun h ValueIdx.ix0
  dsimp only [Cert.Pre_finite_inputs.fn, fn_part1, fn_part2, fn_part3] at h0
  -- arrays 11 down to 6: the outer conjuncts, not needed
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  -- arrays 5 down to 1, and what is left is array 0's
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all a0 _ _ _ _ _ e0, isReal_of_all a1 _ _ _ _ _ e1, isReal_of_all a2 _ _ _ _ _ e2,
    isReal_of_all a3 _ _ _ _ _ e3, isReal_of_all a4 _ _ _ _ _ e4, isReal_of_all a5 _ _ _ _ _ e5⟩

end Cert.FiniteArgs

end
-- ==== Proof.lean ====
/-
  A pooled point-set encoder against its reference, over the extended reals.

  Both programs take a batch of 4096 rows of 1024 points x(b,d) with weights w(b,d), per-point parameters F (1024 × 10) and
  β (1024 × 1), a first dense layer W1 (12 × 20), b1, and three more dense layers 20 → 500 → 200 → 20.  The reference expands
  every point to its twelve features (x, x·F(d,·), β(d)), applies W1 and b1, weights by w, sums over the points and applies
  max(·, 0).  The kernel first folds F, β, W1 and b1 into two tables A, C (1024 × 20) on the host and then computes, block
  of 1024 rows by block, max((x·w)·A + w·C, 0) with two matrix products.  The two pooled values are the same real number
  by distributivity — which needs every entry finite, and the precondition says exactly that.  From the pooled row on,
  the two programs apply the same three dense layers with max(·, 0) between them, row by row; the result's first ten
  columns are the first output and the last ten the second.

  The kernel side: each grid point writes back block t of one function of the arguments (the folded form), and the four
  blocks cover the array.  The reference side: its run, read operation by operation at an index, is the feature form.
  The idealization rewrote nothing, so the sanctioned-idealization claim is trivial; the three frames are the generated
  frame runs (the reference's being its generated run with the results dropped).
-/
import proofs.«155877_j15333033247098_1_alg».proof.Defs
import proofs.«155877_j15333033247098_1_alg».proof.Proof.Gen.Kernel
import proofs.«155877_j15333033247098_1_alg».proof.Proof.Gen.Kernel.Skeleton
import proofs.«155877_j15333033247098_1_alg».proof.Proof.Gen.Kernel.Launch
import proofs.«155877_j15333033247098_1_alg».proof.Proof.Gen.Kernel.Points
import proofs.«155877_j15333033247098_1_alg».proof.Proof.Gen.Kernel.Frame
import proofs.«155877_j15333033247098_1_alg».proof.Proof.Gen.KernelIdeal
import proofs.«155877_j15333033247098_1_alg».proof.Proof.Gen.KernelIdeal.Skeleton
import proofs.«155877_j15333033247098_1_alg».proof.Proof.Gen.KernelIdeal.Launch
import proofs.«155877_j15333033247098_1_alg».proof.Proof.Gen.KernelIdeal.Points
import proofs.«155877_j15333033247098_1_alg».proof.Proof.Gen.KernelIdeal.Frame
import proofs.«155877_j15333033247098_1_alg».proof.Proof.Gen.ReferenceIdeal
import proofs.«155877_j15333033247098_1_alg».proof.Proof.Gen.Pre_finite_inputs
import proofs.«155877_j15333033247098_1_alg».proof.Proof.Gen.KernelIdeal.Value
import proofs.«155877_j15333033247098_1_alg».proof.Proof.Gen.ReferenceIdeal.Run
import proofs.«155877_j15333033247098_1_alg».proof.Proof.Gen.ReferenceIdeal.Read
import proofs.«155877_j15333033247098_1_alg».proof.Proof.KernelArray
import proofs.«155877_j15333033247098_1_alg».proof.Proof.RefRead
import proofs.«155877_j15333033247098_1_alg».proof.Proof.Algebra
import proofs.«155877_j15333033247098_1_alg».proof.Proof.Finite
import Idealize.ShloMosaic.Adequacy
import Idealize.ShloMosaic.Init

noncomputable section

namespace Cert.Proof

open Idealize.ShloMosaic Idealize.SL.Sem

/-- On real-valued inputs the dense layers applied to the feature form and to the folded form of the pooling agree. -/
theorem out_bridge (x mk : Cert.Spec.Mat 4096 1024) (Fm : Cert.Spec.Mat 1024 10) (bp : Cert.Spec.Mat 1024 1) (W1 : Cert.Spec.Mat 12 20) (b1 : Cert.Spec.Row 20)
    (hx : Cert.Spec.IsReal x) (hm : Cert.Spec.IsReal mk) (hF : Cert.Spec.IsReal Fm) (hb : Cert.Spec.IsReal bp) (hW : Cert.Spec.IsReal W1) (hb1 : Cert.Spec.IsReal b1)
    (W2 : Cert.Spec.Mat 20 500) (b2 : Cert.Spec.Row 500) (W3 : Cert.Spec.Mat 500 200) (b3 : Cert.Spec.Row 200) (W4 : Cert.Spec.Mat 200 20) (b4 : Cert.Spec.Row 20) :
    Cert.Spec.outOf (Cert.Spec.preR x mk Fm bp W1 b1) W2 b2 W3 b3 W4 b4 = Cert.Spec.outOf (Cert.Spec.preK x mk Fm bp W1 b1) W2 b2 W3 b3 W4 b4 := by
  funext b n
  unfold Cert.Spec.outOf
  exact congrArg (fun pre => Cert.Spec.mlp pre W2 b2 W3 b3 W4 b4 n)
    (funext fun k => congrArg Cert.Spec.relu (Cert.Spec.pre_eq x mk Fm bp W1 b1 hx hm hF hb hW hb1 b k))

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both runs end with the two results at the folded form of the specification, as functions of the kernel's launch memory. -/
theorem algebraic : Cert.algebraic_KernelIdeal_ReferenceIdeal := by
  intro m ρ m' ρ' hpre hagree
  refine ⟨fun c => Cert.Spec.lo (Cert.KernelIdeal.ArrayValue.outK m c), fun c => Cert.Spec.hi (Cert.KernelIdeal.ArrayValue.outK m c), ?_, ?_⟩
  · exact (θ_run Cert.KernelIdeal.defs _ _).mono
      (fun r h c => ⟨(h c).1.trans (Cert.KernelIdeal.ArrayValue.final10 m c), (h c).2.1.trans (Cert.KernelIdeal.ArrayValue.final11 m c), (h c).2.2⟩)
      (Cert.KernelIdeal.Value.run_blocks m ρ)
  · refine (θ_run Cert.ReferenceIdeal.defs _ _).mono (fun r h c => ?_) (Cert.ReferenceIdeal.Value.run (F := Ideal) m' ρ')
    obtain ⟨a0, a1, a2, a3, a4, a5, a6, a7, a8, a9, a10, a11⟩ := hagree c
    obtain ⟨r0, r1, r2, r3, r4, r5⟩ := Cert.FiniteArgs.real_of_fn _ _ _ _ _ _ _ _ _ _ _ _ (hpre c)
    have hbr := out_bridge (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) r0 r1 r2 r3 r4 r5
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    refine ⟨(h c).1.trans ?_, (h c).2.1.trans ?_, (h c).2.2⟩
    · rw [Cert.ReferenceIdeal.Read.val_main_v31_eq, Cert.ReferenceIdeal.RefValue.ref_lo, a0, a1, a2, a3, a4, a5, a6, a7, a8, a9, a10, a11]
      exact congrArg Cert.Spec.lo hbr
    · rw [Cert.ReferenceIdeal.Read.val_main_v32_eq, Cert.ReferenceIdeal.RefValue.ref_hi, a0, a1, a2, a3, a4, a5, a6, a7, a8, a9, a10, a11]
      exact congrArg Cert.Spec.hi hbr

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
